-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S4096 .f32) (main_arg12 : FVec F S4096x4096 .f32) (main_arg13 : FVec F S4096 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096x4096 .f32 := Host.absf main_arg12
  let main_cst_22 : FVec F S_ .f32 := constant S_ .f32 0x7F800000#32
  let main_v60 : FVec F S4096x4096 .f32 := broadcastInDim S4096x4096 ![] bcast_S_S4096x4096 main_cst_22
  let main_v61 : IVec S4096x4096 1 := cmpf .olt main_v59 main_v60
  let main_c_23 : IVec S_ 1 := constantI S_ 1 1#1
  let main_v62 : IVec S_ 1 := (fun x v => Host.reduce IntOp.andi x v reducesTo_S4096x4096_S_d0_1 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_v63 main_v67

def fn_part2 {F : FTy → Type} [FloatOps F] (main_arg7 : FVec F S4096 .f32) (main_arg8 : FVec F S4096x4096 .f32) (main_arg9 : FVec F S4096 .f32) (main_arg10 : FVec F S4096x4096 .f32) (main_arg11 : FVec F S4096 .f32) (main_arg12 : FVec F S4096x4096 .f32) (main_arg13 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_arg12 main_arg13 main_v48 main_v49 main_v50

def fn_part1 {F : FTy → Type} [FloatOps F] (main_arg4 : FVec F S4096x4096 .f32) (main_arg5 : FVec F S4096 .f32) (main_arg6 : FVec F S4096x4096 .f32) (main_arg7 : FVec F S4096 .f32) (main_arg8 : FVec F S4096x4096 .f32) (main_arg9 : FVec F S4096 .f32) (main_arg10 : FVec F S4096x4096 .f32) (main_arg11 : FVec F S4096 .f32) (main_arg12 : FVec F S4096x4096 .f32) (main_arg13 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x4096 .f32) (main_arg1 : FVec F S8192x4096 .f32) (main_arg2 : FVec F S4096x4096 .f32) (main_arg3 : FVec F S4096 .f32) (main_arg4 : FVec F S4096x4096 .f32) (main_arg5 : FVec F S4096 .f32) (main_arg6 : FVec F S4096x4096 .f32) (main_arg7 : FVec F S4096 .f32) (main_arg8 : FVec F S4096x4096 .f32) (main_arg9 : FVec F S4096 .f32) (main_arg10 : FVec F S4096x4096 .f32) (main_arg11 : FVec F S4096 .f32) (main_arg12 : FVec F S4096x4096 .f32) (main_arg13 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩
abbrev S6x512x1024 : Shape := ⟨3, ![6, 512, 1024]⟩
abbrev S1x512x1024 : Shape := ⟨3, ![1, 512, 1024]⟩

abbrev nBuf : Space → Nat
  | .hbm => 28
  | .vmem => 31
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S4096x4096, .f32⟩
  | .hbm, ⟨11, _⟩ => ⟨S4096, .f32⟩
  | .hbm, ⟨12, _⟩ => ⟨S4096x4096, .f32⟩
  | .hbm, ⟨13, _⟩ => ⟨S4096, .f32⟩
  | .hbm, ⟨14, _⟩ => ⟨S8192x4096, .bf16⟩
  | .hbm, ⟨15, _⟩ => ⟨S4096x4096, .bf16⟩
  | .hbm, ⟨16, _⟩ => ⟨S4096x4096, .bf16⟩
  | .hbm, ⟨17, _⟩ => ⟨S4096x4096, .bf16⟩
  | .hbm, ⟨18, _⟩ => ⟨S4096x4096, .bf16⟩
  | .hbm, ⟨19, _⟩ => ⟨S4096x4096, .bf16⟩
  | .hbm, ⟨20, _⟩ => ⟨S4096x4096, .bf16⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S1x4096, .f32⟩
  | .hbm, ⟨27, _⟩ => ⟨S8192x4096, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S6x512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v59 : BitVec 1 := Scalar.cmpi .eq arg2 c3_i32
  let v60 : BitVec 32 := Scalar.extui v59
  let c0_i32_50 : BitVec 32 := 0#32
  let v61 : BitVec 1 := Scalar.cmpi .ne v60 c0_i32_50
  v61

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

class Facts₀ : Prop where
  bitsLt_bf16_f32 : FTy.bits .bf16 < FTy.bits .f32
  shapeCasts_S4096_S1x4096 : S4096.ShapeCasts S1x4096
  inb_S6x512x1024_S6x512x1024_0_0_0 : ∀ a, (![0, 0, 0] : Fin 3 → Nat) a + S6x512x1024.size a ≤ S6x512x1024.size a
  h_S6x512x1024 : 0 < S6x512x1024.numel
  shapeCasts_S6x512x1024_S6x512x1024 : S6x512x1024.ShapeCasts S6x512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S6x512x1024_S1x512x1024_0_0_0 : ∀ a, (![0, 0, 0] : Fin 3 → Nat) a + S1x512x1024.size a ≤ S6x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S6x512x1024_S1x512x1024_1_0_0 : ∀ a, (![1, 0, 0] : Fin 3 → Nat) a + S1x512x1024.size a ≤ S6x512x1024.size a
  inb_S6x512x1024_S1x512x1024_2_0_0 : ∀ a, (![2, 0, 0] : Fin 3 → Nat) a + S1x512x1024.size a ≤ S6x512x1024.size a
  inb_S6x512x1024_S1x512x1024_3_0_0 : ∀ a, (![3, 0, 0] : Fin 3 → Nat) a + S1x512x1024.size a ≤ S6x512x1024.size a
  inb_S6x512x1024_S1x512x1024_4_0_0 : ∀ a, (![4, 0, 0] : Fin 3 → Nat) a + S1x512x1024.size a ≤ S6x512x1024.size a
  inb_S6x512x1024_S1x512x1024_5_0_0 : ∀ a, (![5, 0, 0] : Fin 3 → Nat) a + S1x512x1024.size a ≤ S6x512x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .bf16 = 32 ∨ (Rect.block (s := S8192x4096) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .bf16 = 32 ∨ (Rect.block (s := S4096x4096) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .bf16 = 32 ∨ (Rect.block (s := S4096x4096) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x4096.size a
  hwx0_6 : ∀ i : grid0.Coords, EltTy.bits .bf16 = 32 ∨ (Rect.block (s := S4096x4096) S1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x4096.size a
  hwx0_7 : ∀ i : grid0.Coords, EltTy.bits .f32 = 32 ∨ (Rect.block (s := S1x4096) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x4096.size a
  hwx0_8 : ∀ i : grid0.Coords, EltTy.bits .f32 = 32 ∨ (Rect.block (s := S1x4096) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x4096.size a
  hwx0_9 : ∀ i : grid0.Coords, EltTy.bits .f32 = 32 ∨ (Rect.block (s := S1x4096) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x4096.size a
  hwx0_10 : ∀ i : grid0.Coords, EltTy.bits .f32 = 32 ∨ (Rect.block (s := S1x4096) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x4096.size a
  hwx0_11 : ∀ i : grid0.Coords, EltTy.bits .f32 = 32 ∨ (Rect.block (s := S1x4096) S1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x4096.size a
  hwx0_12 : ∀ i : grid0.Coords, EltTy.bits .f32 = 32 ∨ (Rect.block (s := S1x4096) S1x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S8192x4096.size a
  hwx0_13 : ∀ i : grid0.Coords, EltTy.bits .f32 = 32 ∨ (Rect.block (s := S8192x4096) S512x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1024.size a ≤ S8192x4096.size a
  hwx0_14 : ∀ i : grid0.Coords, EltTy.bits .f32 = 32 ∨ (Rect.block (s := S8192x4096) S512x1024.size (cc0_transform_14 i) (hinb0_14 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x1024.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x1024.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x1024.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg1) S512x1024.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v13) S512x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | ⟨_ + 15, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S24576x4096 : Shape := ⟨2, ![24576, 4096]⟩
abbrev S24576 : Shape := ⟨1, ![24576]⟩
abbrev S8192x24576 : Shape := ⟨2, ![8192, 24576]⟩
abbrev S1x24576 : Shape := ⟨2, ![1, 24576]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S4096x4096, .f32⟩
  | .hbm, ⟨11, _⟩ => ⟨S4096, .f32⟩
  | .hbm, ⟨12, _⟩ => ⟨S4096x4096, .f32⟩
  | .hbm, ⟨13, _⟩ => ⟨S4096, .f32⟩
  | .hbm, ⟨14, _⟩ => ⟨S24576x4096, .f32⟩
  | .hbm, ⟨15, _⟩ => ⟨S24576, .f32⟩
  | .hbm, ⟨16, _⟩ => ⟨S8192x24576, .f32⟩
  | .hbm, ⟨17, _⟩ => ⟨S1x24576, .f32⟩
  | .hbm, ⟨18, _⟩ => ⟨S8192x24576, .f32⟩
  | .hbm, ⟨19, _⟩ => ⟨S8192x24576, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192x4096, .f32⟩
  | .hbm, ⟨50, _⟩ => ⟨S8192x4096, .f32⟩
  | .hbm, ⟨51, _⟩ => ⟨S_, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S8192x4096, .f32⟩
  | .hbm, ⟨56, _⟩ => ⟨S8192x4096, .f32⟩
  | .hbm, ⟨57, _⟩ => ⟨S8192x4096, .f32⟩
  | .hbm, ⟨58, _⟩ => ⟨S8192x4096, .f32⟩
  | .hbm, ⟨59, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S4096x4096_S4096x4096_S4096x4096_S4096x4096_S4096x4096_S4096x4096_S24576x4096_d0 : Shape.Concatenates [S4096x4096, S4096x4096, S4096x4096, S4096x4096, S4096x4096, S4096x4096] S24576x4096 0
  concatenates_S4096_S4096_S4096_S4096_S4096_S4096_S24576_d0 : Shape.Concatenates [S4096, S4096, S4096, S4096, S4096, S4096] S24576 0
  bcast_S24576_S1x24576_1 : S24576.BroadcastsInDim S1x24576 (![1] : Fin 1 → Fin S1x24576.rank)
  bcast_S1x24576_S8192x24576_0_1 : S1x24576.BroadcastsInDim S8192x24576 (![0, 1] : Fin 2 → Fin S8192x24576.rank)
  slices_S8192x24576_S8192x4096_0_0 : S8192x24576.Slices ![0, 0] S8192x4096
  slices_S8192x24576_S8192x4096_0_4096 : S8192x24576.Slices ![0, 4096] S8192x4096
  slices_S8192x24576_S8192x4096_0_8192 : S8192x24576.Slices ![0, 8192] S8192x4096
  slices_S8192x24576_S8192x4096_0_12288 : S8192x24576.Slices ![0, 12288] S8192x4096
  slices_S8192x24576_S8192x4096_0_16384 : S8192x24576.Slices ![0, 16384] S8192x4096
  slices_S8192x24576_S8192x4096_0_20480 : S8192x24576.Slices ![0, 20480] S8192x4096
  bcast_S_S8192x4096 : S_.BroadcastsInDim S8192x4096 (![] : Fin 0 → Fin S8192x4096.rank)
  dot_S8192x4096_S24576x4096_S8192x24576_1_1_0_0_n_n_wf : DotDims.WF S8192x4096 S24576x4096 S8192x24576 [1] [1] [0] [0] [] []

variable [Facts₀]

def dot_S8192x4096_S24576x4096_S8192x24576_1_1_0_0_n_n : DotDims S8192x4096 S24576x4096 S8192x24576 where
  lhsContracting := [1]
  rhsContracting := [1]
  lhsNonContracting := [0]
  rhsNonContracting := [0]
  lhsBatch := []
  rhsBatch := []
  wf := dot_S8192x4096_S24576x4096_S8192x24576_1_1_0_0_n_n_wf

class Facts : Prop extends Facts₀ where

variable [Facts]
-- ==== Proof.GruSpec.lean ====
/-
  The mathematics both programs compute, stated once over plain arrays of extended reals.

  Every one of the six gates reads the SAME activation matrix `x` (batch × feature): gate `g` is the affine map
  `lin x w_g b_g` at (b, h), the dot product of row `b` of `x` with row `h` of the weight `w_g` (weights are stored
  out-feature × in-feature) plus the bias entry `b_g h`. With σ the logistic function on the extended reals
  (σ(-∞) = 0, σ(+∞) = 1), the cell is
      r = σ(lin_ir + lin_hr),   z = σ(lin_iz + lin_hz),   n = σ(lin_in + r · lin_hn),
      out = (1 - z) · hidden + z · n.
  The only law needed between the two programs is that a sum over 4096 terms is the sum of its four runs of 1024
  consecutive terms: sums of extended reals are commutative and associative also at the infinities, so no entry has
  to be finite.
-/
import Idealize.ShloMosaic.PureOps.Ideal.Laws
import Idealize.ShloMosaic.Lib.ValueIdx
import Idealize.ShloMosaic.Lib.IdealHost
import Mathlib.Algebra.BigOperators.Fin
import Mathlib.Logic.Equiv.Fin.Basic

noncomputable section

namespace Cert.Gru

open Idealize.ShloMosaic Idealize.ShloMosaic.ValueIdx
open scoped BigOperators

/-- Activations: batch 8192 × feature 4096. -/
abbrev Act : Shape := ⟨2, ![8192, 4096]⟩
/-- A weight: out-feature 4096 × in-feature 4096. -/
abbrev Wt : Shape := ⟨2, ![4096, 4096]⟩
/-- A bias: 4096 out-features. -/
abbrev Bias : Shape := ⟨1, ![4096]⟩

/-- Row `b` of `x` against row `h` of `w`: Σ_d x[b,d] · w[h,d]. -/
def proj (x : Act.Idx → EReal) (w : Wt.Idx → EReal) (b : Fin 8192) (h : Fin 4096) : EReal :=
  ∑ d : Fin 4096, x (ix2 b d) * w (ix2 h d)

/-- One gate's affine map at (b, h). -/
def lin (x : Act.Idx → EReal) (w : Wt.Idx → EReal) (bias : Bias.Idx → EReal) (b : Fin 8192) (h : Fin 4096) : EReal :=
  proj x w b h + bias (ix1 h)

/-- The combination of the six gate values and the hidden entry at one position. -/
def combine (ir iz inn hr hz hn hid : EReal) : EReal :=
  (1 - Ideal.logistic (iz + hz)) * hid
    + Ideal.logistic (iz + hz) * Ideal.logistic (inn + Ideal.logistic (ir + hr) * hn)

/-- The whole cell, index by index. -/
def cell (x hid : Act.Idx → EReal)
    (w_ir : Wt.Idx → EReal) (b_ir : Bias.Idx → EReal) (w_iz : Wt.Idx → EReal) (b_iz : Bias.Idx → EReal)
    (w_in : Wt.Idx → EReal) (b_in : Bias.Idx → EReal) (w_hr : Wt.Idx → EReal) (b_hr : Bias.Idx → EReal)
    (w_hz : Wt.Idx → EReal) (b_hz : Bias.Idx → EReal) (w_hn : Wt.Idx → EReal) (b_hn : Bias.Idx → EReal) :
    Act.Idx → EReal := fun j =>
  combine (lin x w_ir b_ir (j 0) (j 1)) (lin x w_iz b_iz (j 0) (j 1)) (lin x w_in b_in (j 0) (j 1))
    (lin x w_hr b_hr (j 0) (j 1)) (lin x w_hz b_hz (j 0) (j 1)) (lin x w_hn b_hn (j 0) (j 1)) (hid j)

/-- A sum over `Fin 4096` is the sum, over the four runs `s`, of the 1024 consecutive terms of run `s`. -/
theorem sum_runs {M : Type*} [AddCommMonoid M] (f : ℕ → M) :
    ∑ d : Fin 4096, f d.val = ∑ s ∈ Finset.range 4, ∑ e : Fin 1024, f (1024 * s + e.val) := by
  rw [← Fin.sum_univ_eq_sum_range (fun s => ∑ e : Fin 1024, f (1024 * s + e.val)) 4]
  rw [← Finset.sum_product' (f := fun (s : Fin 4) (e : Fin 1024) => f (1024 * s.val + e.val))]
  rw [Finset.univ_product_univ]
  exact (Equiv.sum_comp (finProdFinEquiv (m := 4) (n := 1024)) (fun d : Fin 4096 => f d.val)).symm.trans
    (Finset.sum_congr rfl fun p _ => by
      show f ((finProdFinEquiv p : Fin (4 * 1024)).val) = _
      rw [finProdFinEquiv_apply_val, Nat.add_comm])

/-- `proj` as the four block sums: run `s` contracts features `1024·s … 1024·s + 1023`. -/
theorem proj_runs (x : Act.Idx → EReal) (w : Wt.Idx → EReal) (b : Fin 8192) (h : Fin 4096)
    (X W : ℕ → EReal) (hX : ∀ d : Fin 4096, x (ix2 b d) = X d.val) (hW : ∀ d : Fin 4096, w (ix2 h d) = W d.val) :
    proj x w b h = ∑ s ∈ Finset.range 4, ∑ e : Fin 1024, X (1024 * s + e.val) * W (1024 * s + e.val) := by
  unfold proj
  rw [← sum_runs (fun d => X d * W d)]
  exact Finset.sum_congr rfl fun d _ => by rw [hX d, hW d]

end Cert.Gru

end
-- ==== Proof.RefValue.lean ====
/-
  The reference program's last stage, read at an index, is the cell of `Cert.Gru.cell`.

  The reference stacks the six weights into one 24576 × 4096 matrix and the six biases into one vector of 24576,
  takes ONE product of the activations with the stacked matrix, adds the stacked bias along the rows, and cuts the
  result back into six 8192 × 4096 slices: slice `g` at (b, h) reads column `4096·g + h`, whose dot product runs over
  row `4096·g + h` of the stack, which is row `h` of weight `g`; so slice `g` is gate `g`'s affine map `lin`. The
  logistic function appears expanded as 1 / (1 + exp(-x)) with the constant 1.0 broadcast; on the extended reals that
  expression is the logistic function itself, infinities included. The gates are then combined in the same order as in
  `Cert.Gru.combine`.
-/
import proofs.«134069_j83116207112676_1_alg».proof.Proof.Gen.ReferenceIdeal.Read
import proofs.«134069_j83116207112676_1_alg».proof.Proof.GruSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Gru.Ref

open Cert.ReferenceIdeal Cert.ReferenceIdeal.Gen Idealize.ShloMosaic Idealize.ShloMosaic.TcCoe
open Idealize.ShloMosaic.ValueIdx
open scoped BigOperators

/-- Gate `g`'s weight among the six, in the order the reference stacks them. -/
def gateWeight (x2 x4 x6 x8 x10 x12 : S4096x4096.Idx → EReal) (g : Fin 6) : S4096x4096.Idx → EReal :=
  match g with
  | ⟨0, _⟩ => x2 | ⟨1, _⟩ => x4 | ⟨2, _⟩ => x6 | ⟨3, _⟩ => x8 | ⟨4, _⟩ => x10 | ⟨5, _⟩ => x12

/-- Gate `g`'s bias among the six, in the order the reference stacks them. -/
def gateBias (x3 x5 x7 x9 x11 x13 : S4096.Idx → EReal) (g : Fin 6) : S4096.Idx → EReal :=
  match g with
  | ⟨0, _⟩ => x3 | ⟨1, _⟩ => x5 | ⟨2, _⟩ => x7 | ⟨3, _⟩ => x9 | ⟨4, _⟩ => x11 | ⟨5, _⟩ => x13

/-- Row `4096·g + h` of the stacked weights is row `h` of gate `g`'s weight. -/
theorem stacked_weight_row (x2 x4 x6 x8 x10 x12 : (⟨S4096x4096, .f32⟩ : BufTy).Contents (Elt Ideal))
    (g : Fin 6) (h d : Fin 4096) (j : S24576x4096.Idx)
    (hj0 : (j 0).val = 4096 * g.val + h.val) (hj1 : (j 1).val = d.val) :
    Read.val_main_v0 (F := Ideal) x2 x4 x6 x8 x10 x12 j = gateWeight x2 x4 x6 x8 x10 x12 g (ix2 h d) := by
  unfold Read.val_main_v0
  have hg := g.isLt
  have hh := h.isLt
  refine concatenate_ofFn_apply (t := S24576x4096) (s₁ := S4096x4096) (0 : Fin 2)
    (fun n : Fin 6 => gateWeight x2 x4 x6 x8 x10 x12 n) _ rfl 4096 rfl j g ?_ (ix2 h d) ?_ ?_
  · rw [hj0]; omega
  · show h.val = (j 0).val % 4096
    rw [hj0]; omega
  · intro b hb
    match b, hb with
    | ⟨0, _⟩, hb => exact absurd rfl hb
    | ⟨1, _⟩, _ => exact hj1.symm

/-- Entry `4096·g + h` of the stacked biases is entry `h` of gate `g`'s bias. -/
theorem stacked_bias_entry (x3 x5 x7 x9 x11 x13 : (⟨S4096, .f32⟩ : BufTy).Contents (Elt Ideal))
    (g : Fin 6) (h : Fin 4096) (j : S24576.Idx) (hj0 : (j 0).val = 4096 * g.val + h.val) :
    Read.val_main_v1 (F := Ideal) x3 x5 x7 x9 x11 x13 j = gateBias x3 x5 x7 x9 x11 x13 g (ix1 h) := by
  unfold Read.val_main_v1
  have hg := g.isLt
  have hh := h.isLt
  refine concatenate_ofFn_apply (t := S24576) (s₁ := S4096) (0 : Fin 1)
    (fun n : Fin 6 => gateBias x3 x5 x7 x9 x11 x13 n) _ rfl 4096 rfl j g ?_ (ix1 h) ?_ ?_
  · rw [hj0]; omega
  · show h.val = (j 0).val % 4096
    rw [hj0]; omega
  · intro b hb
    match b, hb with
    | ⟨0, _⟩, hb => exact absurd rfl hb

/-- Column `4096·g + h` of the biased product, at row `b`, is gate `g`'s affine map at (b, h): the dot product runs
    over row `4096·g + h` of the stacked weights, which is row `h` of gate `g`'s weight, and the bias added along the
    rows is entry `4096·g + h` of the stacked biases. -/
theorem biased_product_col (x0 : (⟨S8192x4096, .f32⟩ : BufTy).Contents (Elt Ideal))
    (x2 : (⟨S4096x4096, .f32⟩ : BufTy).Contents (Elt Ideal)) (x3 : (⟨S4096, .f32⟩ : BufTy).Contents (Elt Ideal))
    (x4 : (⟨S4096x4096, .f32⟩ : BufTy).Contents (Elt Ideal)) (x5 : (⟨S4096, .f32⟩ : BufTy).Contents (Elt Ideal))
    (x6 : (⟨S4096x4096, .f32⟩ : BufTy).Contents (Elt Ideal)) (x7 : (⟨S4096, .f32⟩ : BufTy).Contents (Elt Ideal))
    (x8 : (⟨S4096x4096, .f32⟩ : BufTy).Contents (Elt Ideal)) (x9 : (⟨S4096, .f32⟩ : BufTy).Contents (Elt Ideal))
    (x10 : (⟨S4096x4096, .f32⟩ : BufTy).Contents (Elt Ideal)) (x11 : (⟨S4096, .f32⟩ : BufTy).Contents (Elt Ideal))
    (x12 : (⟨S4096x4096, .f32⟩ : BufTy).Contents (Elt Ideal)) (x13 : (⟨S4096, .f32⟩ : BufTy).Contents (Elt Ideal))
    (g : Fin 6) (b : Fin 8192) (h : Fin 4096) (i : S8192x24576.Idx)
    (hi0 : (i 0).val = b.val) (hi1 : (i 1).val = 4096 * g.val + h.val) :
    Read.val_main_v5 (F := Ideal) x0 x2 x3 x4 x5 x6 x7 x8 x9 x10 x11 x12 x13 i
      = Cert.Gru.lin x0 (gateWeight x2 x4 x6 x8 x10 x12 g) (gateBias x3 x5 x7 x9 x11 x13 g) b h := by
  rw [Read.val_main_v5_apply, Read.val_main_v2_apply, Read.val_main_v4_apply, Read.val_main_v3_apply]
  rw [stacked_bias_entry x3 x5 x7 x9 x11 x13 g h _ (show ((Read.idx_main_v3 (Read.idx_main_v4 i)) 0).val = _ from hi1)]
  unfold Cert.Gru.lin Cert.Gru.proj
  refine congrArg (· + gateBias x3 x5 x7 x9 x11 x13 g (ix1 h)) ?_
  refine Finset.sum_congr rfl fun k _ => ?_
  rw [stacked_weight_row x2 x4 x6 x8 x10 x12 g h k (Read.ridx_main_v2 i k) hi1 rfl]
  refine congrArg (fun p => x0 p * gateWeight x2 x4 x6 x8 x10 x12 g (ix2 h k)) ?_
  funext a
  match a with
  | ⟨0, _⟩ => exact Fin.ext hi0
  | ⟨1, _⟩ => rfl

/-- The first slice of the biased product (columns `0` … `4095`) is the gate `ir`'s affine map. -/
theorem slice_ir (x0 : (⟨S8192x4096, .f32⟩ : BufTy).Contents (Elt Ideal))
    (x2 : (⟨S4096x4096, .f32⟩ : BufTy).Contents (Elt Ideal)) (x3 : (⟨S4096, .f32⟩ : BufTy).Contents (Elt Ideal))
    (x4 : (⟨S4096x4096, .f32⟩ : BufTy).Contents (Elt Ideal)) (x5 : (⟨S4096, .f32⟩ : BufTy).Contents (Elt Ideal))
    (x6 : (⟨S4096x4096, .f32⟩ : BufTy).Contents (Elt Ideal)) (x7 : (⟨S4096, .f32⟩ : BufTy).Contents (Elt Ideal))
    (x8 : (⟨S4096x4096, .f32⟩ : BufTy).Contents (Elt Ideal)) (x9 : (⟨S4096, .f32⟩ : BufTy).Contents (Elt Ideal))
    (x10 : (⟨S4096x4096, .f32⟩ : BufTy).Contents (Elt Ideal)) (x11 : (⟨S4096, .f32⟩ : BufTy).Contents (Elt Ideal))
    (x12 : (⟨S4096x4096, .f32⟩ : BufTy).Contents (Elt Ideal)) (x13 : (⟨S4096, .f32⟩ : BufTy).Contents (Elt Ideal))
    (b : Fin 8192) (h : Fin 4096) :
    Read.val_main_v6 (F := Ideal) x0 x2 x3 x4 x5 x6 x7 x8 x9 x10 x11 x12 x13 (ix2 b h) = Cert.Gru.lin x0 x2 x3 b h :=
  (Read.val_main_v6_apply x0 x2 x3 x4 x5 x6 x7 x8 x9 x10 x11 x12 x13 (ix2 b h)).trans
    (biased_product_col x0 x2 x3 x4 x5 x6 x7 x8 x9 x10 x11 x12 x13 ⟨0, by decide⟩ b h _ rfl
      (show h.val = 4096 * 0 + h.val by omega))

/-- The second slice of the biased product (columns `4096` … `8191`) is the gate `iz`'s affine map. -/
theorem slice_iz (x0 : (⟨S8192x4096, .f32⟩ : BufTy).Contents (Elt Ideal))
    (x2 : (⟨S4096x4096, .f32⟩ : BufTy).Contents (Elt Ideal)) (x3 : (⟨S4096, .f32⟩ : BufTy).Contents (Elt Ideal))
    (x4 : (⟨S4096x4096, .f32⟩ : BufTy).Contents (Elt Ideal)) (x5 : (⟨S4096, .f32⟩ : BufTy).Contents (Elt Ideal))
    (x6 : (⟨S4096x4096, .f32⟩ : BufTy).Contents (Elt Ideal)) (x7 : (⟨S4096, .f32⟩ : BufTy).Contents (Elt Ideal))
    (x8 : (⟨S4096x4096, .f32⟩ : BufTy).Contents (Elt Ideal)) (x9 : (⟨S4096, .f32⟩ : BufTy).Contents (Elt Ideal))
    (x10 : (⟨S4096x4096, .f32⟩ : BufTy).Contents (Elt Ideal)) (x11 : (⟨S4096, .f32⟩ : BufTy).Contents (Elt Ideal))
    (x12 : (⟨S4096x4096, .f32⟩ : BufTy).Contents (Elt Ideal)) (x13 : (⟨S4096, .f32⟩ : BufTy).Contents (Elt Ideal))
    (b : Fin 8192) (h : Fin 4096) :
    Read.val_main_v7 (F := Ideal) x0 x2 x3 x4 x5 x6 x7 x8 x9 x10 x11 x12 x13 (ix2 b h) = Cert.Gru.lin x0 x4 x5 b h :=
  (Read.val_main_v7_apply x0 x2 x3 x4 x5 x6 x7 x8 x9 x10 x11 x12 x13 (ix2 b h)).trans
    (biased_product_col x0 x2 x3 x4 x5 x6 x7 x8 x9 x10 x11 x12 x13 ⟨1, by decide⟩ b h _ rfl
      (show 4096 + h.val = 4096 * 1 + h.val by omega))

/-- The third slice of the biased product (columns `8192` … `12287`) is the gate `in`'s affine map. -/
theorem slice_in (x0 : (⟨S8192x4096, .f32⟩ : BufTy).Contents (Elt Ideal))
    (x2 : (⟨S4096x4096, .f32⟩ : BufTy).Contents (Elt Ideal)) (x3 : (⟨S4096, .f32⟩ : BufTy).Contents (Elt Ideal))
    (x4 : (⟨S4096x4096, .f32⟩ : BufTy).Contents (Elt Ideal)) (x5 : (⟨S4096, .f32⟩ : BufTy).Contents (Elt Ideal))
    (x6 : (⟨S4096x4096, .f32⟩ : BufTy).Contents (Elt Ideal)) (x7 : (⟨S4096, .f32⟩ : BufTy).Contents (Elt Ideal))
    (x8 : (⟨S4096x4096, .f32⟩ : BufTy).Contents (Elt Ideal)) (x9 : (⟨S4096, .f32⟩ : BufTy).Contents (Elt Ideal))
    (x10 : (⟨S4096x4096, .f32⟩ : BufTy).Contents (Elt Ideal)) (x11 : (⟨S4096, .f32⟩ : BufTy).Contents (Elt Ideal))
    (x12 : (⟨S4096x4096, .f32⟩ : BufTy).Contents (Elt Ideal)) (x13 : (⟨S4096, .f32⟩ : BufTy).Contents (Elt Ideal))
    (b : Fin 8192) (h : Fin 4096) :
    Read.val_main_v8 (F := Ideal) x0 x2 x3 x4 x5 x6 x7 x8 x9 x10 x11 x12 x13 (ix2 b h) = Cert.Gru.lin x0 x6 x7 b h :=
  (Read.val_main_v8_apply x0 x2 x3 x4 x5 x6 x7 x8 x9 x10 x11 x12 x13 (ix2 b h)).trans
    (biased_product_col x0 x2 x3 x4 x5 x6 x7 x8 x9 x10 x11 x12 x13 ⟨2, by decide⟩ b h _ rfl
      (show 8192 + h.val = 4096 * 2 + h.val by omega))

/-- The fourth slice of the biased product (columns `12288` … `16383`) is the gate `hr`'s affine map. -/
theorem slice_hr (x0 : (⟨S8192x4096, .f32⟩ : BufTy).Contents (Elt Ideal))
    (x2 : (⟨S4096x4096, .f32⟩ : BufTy).Contents (Elt Ideal)) (x3 : (⟨S4096, .f32⟩ : BufTy).Contents (Elt Ideal))
    (x4 : (⟨S4096x4096, .f32⟩ : BufTy).Contents (Elt Ideal)) (x5 : (⟨S4096, .f32⟩ : BufTy).Contents (Elt Ideal))
    (x6 : (⟨S4096x4096, .f32⟩ : BufTy).Contents (Elt Ideal)) (x7 : (⟨S4096, .f32⟩ : BufTy).Contents (Elt Ideal))
    (x8 : (⟨S4096x4096, .f32⟩ : BufTy).Contents (Elt Ideal)) (x9 : (⟨S4096, .f32⟩ : BufTy).Contents (Elt Ideal))
    (x10 : (⟨S4096x4096, .f32⟩ : BufTy).Contents (Elt Ideal)) (x11 : (⟨S4096, .f32⟩ : BufTy).Contents (Elt Ideal))
    (x12 : (⟨S4096x4096, .f32⟩ : BufTy).Contents (Elt Ideal)) (x13 : (⟨S4096, .f32⟩ : BufTy).Contents (Elt Ideal))
    (b : Fin 8192) (h : Fin 4096) :
    Read.val_main_v9 (F := Ideal) x0 x2 x3 x4 x5 x6 x7 x8 x9 x10 x11 x12 x13 (ix2 b h) = Cert.Gru.lin x0 x8 x9 b h :=
  (Read.val_main_v9_apply x0 x2 x3 x4 x5 x6 x7 x8 x9 x10 x11 x12 x13 (ix2 b h)).trans
    (biased_product_col x0 x2 x3 x4 x5 x6 x7 x8 x9 x10 x11 x12 x13 ⟨3, by decide⟩ b h _ rfl
      (show 12288 + h.val = 4096 * 3 + h.val by omega))

/-- The fifth slice of the biased product (columns `16384` … `20479`) is the gate `hz`'s affine map. -/
theorem slice_hz (x0 : (⟨S8192x4096, .f32⟩ : BufTy).Contents (Elt Ideal))
    (x2 : (⟨S4096x4096, .f32⟩ : BufTy).Contents (Elt Ideal)) (x3 : (⟨S4096, .f32⟩ : BufTy).Contents (Elt Ideal))
    (x4 : (⟨S4096x4096, .f32⟩ : BufTy).Contents (Elt Ideal)) (x5 : (⟨S4096, .f32⟩ : BufTy).Contents (Elt Ideal))
    (x6 : (⟨S4096x4096, .f32⟩ : BufTy).Contents (Elt Ideal)) (x7 : (⟨S4096, .f32⟩ : BufTy).Contents (Elt Ideal))
    (x8 : (⟨S4096x4096, .f32⟩ : BufTy).Contents (Elt Ideal)) (x9 : (⟨S4096, .f32⟩ : BufTy).Contents (Elt Ideal))
    (x10 : (⟨S4096x4096, .f32⟩ : BufTy).Contents (Elt Ideal)) (x11 : (⟨S4096, .f32⟩ : BufTy).Contents (Elt Ideal))
    (x12 : (⟨S4096x4096, .f32⟩ : BufTy).Contents (Elt Ideal)) (x13 : (⟨S4096, .f32⟩ : BufTy).Contents (Elt Ideal))
    (b : Fin 8192) (h : Fin 4096) :
    Read.val_main_v10 (F := Ideal) x0 x2 x3 x4 x5 x6 x7 x8 x9 x10 x11 x12 x13 (ix2 b h) = Cert.Gru.lin x0 x10 x11 b h :=
  (Read.val_main_v10_apply x0 x2 x3 x4 x5 x6 x7 x8 x9 x10 x11 x12 x13 (ix2 b h)).trans
    (biased_product_col x0 x2 x3 x4 x5 x6 x7 x8 x9 x10 x11 x12 x13 ⟨4, by decide⟩ b h _ rfl
      (show 16384 + h.val = 4096 * 4 + h.val by omega))

/-- The sixth slice of the biased product (columns `20480` … `24575`) is the gate `hn`'s affine map. -/
theorem slice_hn (x0 : (⟨S8192x4096, .f32⟩ : BufTy).Contents (Elt Ideal))
    (x2 : (⟨S4096x4096, .f32⟩ : BufTy).Contents (Elt Ideal)) (x3 : (⟨S4096, .f32⟩ : BufTy).Contents (Elt Ideal))
    (x4 : (⟨S4096x4096, .f32⟩ : BufTy).Contents (Elt Ideal)) (x5 : (⟨S4096, .f32⟩ : BufTy).Contents (Elt Ideal))
    (x6 : (⟨S4096x4096, .f32⟩ : BufTy).Contents (Elt Ideal)) (x7 : (⟨S4096, .f32⟩ : BufTy).Contents (Elt Ideal))
    (x8 : (⟨S4096x4096, .f32⟩ : BufTy).Contents (Elt Ideal)) (x9 : (⟨S4096, .f32⟩ : BufTy).Contents (Elt Ideal))
    (x10 : (⟨S4096x4096, .f32⟩ : BufTy).Contents (Elt Ideal)) (x11 : (⟨S4096, .f32⟩ : BufTy).Contents (Elt Ideal))
    (x12 : (⟨S4096x4096, .f32⟩ : BufTy).Contents (Elt Ideal)) (x13 : (⟨S4096, .f32⟩ : BufTy).Contents (Elt Ideal))
    (b : Fin 8192) (h : Fin 4096) :
    Read.val_main_v11 (F := Ideal) x0 x2 x3 x4 x5 x6 x7 x8 x9 x10 x11 x12 x13 (ix2 b h) = Cert.Gru.lin x0 x12 x13 b h :=
  (Read.val_main_v11_apply x0 x2 x3 x4 x5 x6 x7 x8 x9 x10 x11 x12 x13 (ix2 b h)).trans
    (biased_product_col x0 x2 x3 x4 x5 x6 x7 x8 x9 x10 x11 x12 x13 ⟨5, by decide⟩ b h _ rfl
      (show 20480 + h.val = 4096 * 5 + h.val by omega))

/-- The constant 1.0 broadcast over the array reads the extended real one everywhere. -/
theorem broadcast_one_v15 (i : S8192x4096.Idx) : Read.val_main_v15 (F := Ideal) i = 1 := by
  rw [Read.val_main_v15_apply, Read.val_main_cst_apply]; exact Ideal.ofBits_one_f32

/-- The constant 1.0 broadcast over the array reads the extended real one everywhere. -/
theorem broadcast_one_v17 (i : S8192x4096.Idx) : Read.val_main_v17 (F := Ideal) i = 1 := by
  rw [Read.val_main_v17_apply, Read.val_main_cst_0_apply]; exact Ideal.ofBits_one_f32

/-- The constant 1.0 broadcast over the array reads the extended real one everywhere. -/
theorem broadcast_one_v22 (i : S8192x4096.Idx) : Read.val_main_v22 (F := Ideal) i = 1 := by
  rw [Read.val_main_v22_apply, Read.val_main_cst_1_apply]; exact Ideal.ofBits_one_f32

/-- The constant 1.0 broadcast over the array reads the extended real one everywhere. -/
theorem broadcast_one_v24 (i : S8192x4096.Idx) : Read.val_main_v24 (F := Ideal) i = 1 := by
  rw [Read.val_main_v24_apply, Read.val_main_cst_2_apply]; exact Ideal.ofBits_one_f32

/-- The constant 1.0 broadcast over the array reads the extended real one everywhere. -/
theorem broadcast_one_v30 (i : S8192x4096.Idx) : Read.val_main_v30 (F := Ideal) i = 1 := by
  rw [Read.val_main_v30_apply, Read.val_main_cst_3_apply]; exact Ideal.ofBits_one_f32

/-- The constant 1.0 broadcast over the array reads the extended real one everywhere. -/
theorem broadcast_one_v32 (i : S8192x4096.Idx) : Read.val_main_v32 (F := Ideal) i = 1 := by
  rw [Read.val_main_v32_apply, Read.val_main_cst_4_apply]; exact Ideal.ofBits_one_f32

/-- The constant 1.0 broadcast over the array reads the extended real one everywhere. -/
theorem broadcast_one_v34 (i : S8192x4096.Idx) : Read.val_main_v34 (F := Ideal) i = 1 := by
  rw [Read.val_main_v34_apply, Read.val_main_cst_5_apply]; exact Ideal.ofBits_one_f32

/-- The reset gate: 1 / (1 + exp(-(ir + hr))) is the logistic function of ir + hr. -/
theorem gate_r (x0 : (⟨S8192x4096, .f32⟩ : BufTy).Contents (Elt Ideal))
    (x2 : (⟨S4096x4096, .f32⟩ : BufTy).Contents (Elt Ideal)) (x3 : (⟨S4096, .f32⟩ : BufTy).Contents (Elt Ideal))
    (x4 : (⟨S4096x4096, .f32⟩ : BufTy).Contents (Elt Ideal)) (x5 : (⟨S4096, .f32⟩ : BufTy).Contents (Elt Ideal))
    (x6 : (⟨S4096x4096, .f32⟩ : BufTy).Contents (Elt Ideal)) (x7 : (⟨S4096, .f32⟩ : BufTy).Contents (Elt Ideal))
    (x8 : (⟨S4096x4096, .f32⟩ : BufTy).Contents (Elt Ideal)) (x9 : (⟨S4096, .f32⟩ : BufTy).Contents (Elt Ideal))
    (x10 : (⟨S4096x4096, .f32⟩ : BufTy).Contents (Elt Ideal)) (x11 : (⟨S4096, .f32⟩ : BufTy).Contents (Elt Ideal))
    (x12 : (⟨S4096x4096, .f32⟩ : BufTy).Contents (Elt Ideal)) (x13 : (⟨S4096, .f32⟩ : BufTy).Contents (Elt Ideal))
    (b : Fin 8192) (h : Fin 4096) :
    Read.val_main_v18 (F := Ideal) x0 x2 x3 x4 x5 x6 x7 x8 x9 x10 x11 x12 x13 (ix2 b h)
      = Ideal.logistic (Cert.Gru.lin x0 x2 x3 b h + Cert.Gru.lin x0 x8 x9 b h) := by
  rw [Read.val_main_v18_apply, broadcast_one_v17, Read.val_main_v16_apply, broadcast_one_v15, Read.val_main_v14_apply,
    Read.val_main_v13_apply, Read.val_main_v12_apply, slice_ir, slice_hr]
  rfl

/-- The update gate: 1 / (1 + exp(-(iz + hz))) is the logistic function of iz + hz. -/
theorem gate_z (x0 : (⟨S8192x4096, .f32⟩ : BufTy).Contents (Elt Ideal))
    (x2 : (⟨S4096x4096, .f32⟩ : BufTy).Contents (Elt Ideal)) (x3 : (⟨S4096, .f32⟩ : BufTy).Contents (Elt Ideal))
    (x4 : (⟨S4096x4096, .f32⟩ : BufTy).Contents (Elt Ideal)) (x5 : (⟨S4096, .f32⟩ : BufTy).Contents (Elt Ideal))
    (x6 : (⟨S4096x4096, .f32⟩ : BufTy).Contents (Elt Ideal)) (x7 : (⟨S4096, .f32⟩ : BufTy).Contents (Elt Ideal))
    (x8 : (⟨S4096x4096, .f32⟩ : BufTy).Contents (Elt Ideal)) (x9 : (⟨S4096, .f32⟩ : BufTy).Contents (Elt Ideal))
    (x10 : (⟨S4096x4096, .f32⟩ : BufTy).Contents (Elt Ideal)) (x11 : (⟨S4096, .f32⟩ : BufTy).Contents (Elt Ideal))
    (x12 : (⟨S4096x4096, .f32⟩ : BufTy).Contents (Elt Ideal)) (x13 : (⟨S4096, .f32⟩ : BufTy).Contents (Elt Ideal))
    (b : Fin 8192) (h : Fin 4096) :
    Read.val_main_v25 (F := Ideal) x0 x2 x3 x4 x5 x6 x7 x8 x9 x10 x11 x12 x13 (ix2 b h)
      = Ideal.logistic (Cert.Gru.lin x0 x4 x5 b h + Cert.Gru.lin x0 x10 x11 b h) := by
  rw [Read.val_main_v25_apply, broadcast_one_v24, Read.val_main_v23_apply, broadcast_one_v22, Read.val_main_v21_apply,
    Read.val_main_v20_apply, Read.val_main_v19_apply, slice_iz, slice_hz]
  rfl

/-- The candidate: the logistic function of in + r · hn, with r the reset gate. -/
theorem gate_n (x0 : (⟨S8192x4096, .f32⟩ : BufTy).Contents (Elt Ideal))
    (x2 : (⟨S4096x4096, .f32⟩ : BufTy).Contents (Elt Ideal)) (x3 : (⟨S4096, .f32⟩ : BufTy).Contents (Elt Ideal))
    (x4 : (⟨S4096x4096, .f32⟩ : BufTy).Contents (Elt Ideal)) (x5 : (⟨S4096, .f32⟩ : BufTy).Contents (Elt Ideal))
    (x6 : (⟨S4096x4096, .f32⟩ : BufTy).Contents (Elt Ideal)) (x7 : (⟨S4096, .f32⟩ : BufTy).Contents (Elt Ideal))
    (x8 : (⟨S4096x4096, .f32⟩ : BufTy).Contents (Elt Ideal)) (x9 : (⟨S4096, .f32⟩ : BufTy).Contents (Elt Ideal))
    (x10 : (⟨S4096x4096, .f32⟩ : BufTy).Contents (Elt Ideal)) (x11 : (⟨S4096, .f32⟩ : BufTy).Contents (Elt Ideal))
    (x12 : (⟨S4096x4096, .f32⟩ : BufTy).Contents (Elt Ideal)) (x13 : (⟨S4096, .f32⟩ : BufTy).Contents (Elt Ideal))
    (b : Fin 8192) (h : Fin 4096) :
    Read.val_main_v33 (F := Ideal) x0 x2 x3 x4 x5 x6 x7 x8 x9 x10 x11 x12 x13 (ix2 b h)
      = Ideal.logistic (Cert.Gru.lin x0 x6 x7 b h
          + Ideal.logistic (Cert.Gru.lin x0 x2 x3 b h + Cert.Gru.lin x0 x8 x9 b h) * Cert.Gru.lin x0 x12 x13 b h) := by
  rw [Read.val_main_v33_apply, broadcast_one_v32, Read.val_main_v31_apply, broadcast_one_v30, Read.val_main_v29_apply,
    Read.val_main_v28_apply, Read.val_main_v27_apply, Read.val_main_v26_apply, slice_in, gate_r, slice_hn]
  rfl

/-- The reference's result stage is the cell of its fourteen arguments (argument order: activations, hidden, then
    weight and bias of the gates ir, iz, in, hr, hz, hn). -/
theorem val_eq (x0 x1 : (⟨S8192x4096, .f32⟩ : BufTy).Contents (Elt Ideal))
    (x2 : (⟨S4096x4096, .f32⟩ : BufTy).Contents (Elt Ideal)) (x3 : (⟨S4096, .f32⟩ : BufTy).Contents (Elt Ideal))
    (x4 : (⟨S4096x4096, .f32⟩ : BufTy).Contents (Elt Ideal)) (x5 : (⟨S4096, .f32⟩ : BufTy).Contents (Elt Ideal))
    (x6 : (⟨S4096x4096, .f32⟩ : BufTy).Contents (Elt Ideal)) (x7 : (⟨S4096, .f32⟩ : BufTy).Contents (Elt Ideal))
    (x8 : (⟨S4096x4096, .f32⟩ : BufTy).Contents (Elt Ideal)) (x9 : (⟨S4096, .f32⟩ : BufTy).Contents (Elt Ideal))
    (x10 : (⟨S4096x4096, .f32⟩ : BufTy).Contents (Elt Ideal)) (x11 : (⟨S4096, .f32⟩ : BufTy).Contents (Elt Ideal))
    (x12 : (⟨S4096x4096, .f32⟩ : BufTy).Contents (Elt Ideal)) (x13 : (⟨S4096, .f32⟩ : BufTy).Contents (Elt Ideal)) :
    Cert.ReferenceIdeal.Read.val_main_v38 (F := Ideal) x0 x1 x2 x3 x4 x5 x6 x7 x8 x9 x10 x11 x12 x13
      = Cert.Gru.cell x0 x1 x2 x3 x4 x5 x6 x7 x8 x9 x10 x11 x12 x13 := by
  -- Index by index: split the index into its batch and feature coordinates, read the last three stages
  -- (the two products and their sum), the constant one, the update gate and the candidate; what is left is
  -- `combine` of the six affine maps and the hidden entry, spelt with the float operations of the extended reals.
  funext i
  obtain ⟨b, h, rfl⟩ : ∃ (b : Fin 8192) (h : Fin 4096), i = ix2 b h := ⟨i 0, i 1, eq_ix2 i⟩
  rw [Read.val_main_v38_apply, Read.val_main_v36_apply, Read.val_main_v37_apply, Read.val_main_v35_apply,
    broadcast_one_v34, gate_z, gate_n]
  rfl

end Cert.Gru.Ref

end
-- ==== Proof.BodyValue.lean ====
/-
  What one run of the kernel body leaves behind, read at an index over the extended reals.

  The body keeps a scratch of six slabs (one per gate), each 512 × 1024. At a grid point it holds one 512 × 1024
  block `x0` of the activations and one 1024 × 1024 block `x1 … x6` of each gate's weight, and it adds to slab `g`,
  at (p, q), the partial dot product `dot x0 w_g p q = Σ_e x0[p,e] · w_g[q,e]` over the block's 1024 features.
  At the first point of a run of four the slabs are zeroed first; at the last point the six slab values at (p, q),
  each with its bias entry `x7 … x12` at column q added, go through the gate combination (`Cert.Gru.combine`) together
  with the hidden block's entry `x13[p,q]`, and that is the output block.
-/
import proofs.«134069_j83116207112676_1_alg».proof.Proof.Gen.KernelIdeal.Frame
import proofs.«134069_j83116207112676_1_alg».proof.Proof.GruSpec
import Idealize.ShloMosaic.Lib.Pipeline.Value
import Idealize.ShloMosaic.Lib.ValueIdx
import Idealize.ShloMosaic.Lib.ValueLayout
import Idealize.ShloMosaic.Lib.IdealHost
import Idealize.ShloMosaic.Lib.Tactic
import Idealize.ShloMosaic.PureOps.Ideal.Laws

set_option maxRecDepth 16384

noncomputable section

namespace Cert.Gru.Body

open Cert.KernelIdeal Cert.KernelIdeal.Gen Idealize.ShloMosaic Idealize.ShloMosaic.TcCoe Idealize.ShloMosaic.Tactic
open Idealize.ShloMosaic.ValueIdx
open scoped BigOperators

/-- The partial dot product of one activation block row with one weight block row: Σ_e x[p,e] · w[q,e]. -/
def dot (x : S512x1024.Idx → EReal) (w : S1024x1024.Idx → EReal) (p : Fin 512) (q : Fin 1024) : EReal :=
  ∑ e : Fin 1024, x (ix2 p e) * w (ix2 q e)

/-- Gate `g`'s weight block among the six the body holds (gates in the order ir, iz, in, hr, hz, hn). -/
def wsel (w1 w2 w3 w4 w5 w6 : S1024x1024.Idx → EReal) : Fin 6 → S1024x1024.Idx → EReal
  | 0 => w1 | 1 => w2 | 2 => w3 | 3 => w4 | 4 => w5 | 5 => w6

/-! ## The block product at an index

The body multiplies the 512 × 1024 activation block by the transpose of a 1024 × 1024 weight block: both operands are
contracted along their LAST axis. Read at output index (p, q), the product into the zero accumulator is the sum over
the 1024 features `e` of `x[p,e] · w[q,e]`. -/

/-- The left operand's row coordinate is the output's row. -/
theorem lhs_dot_0 (j : S512x1024.Idx) (k : dot_S512x1024_S1024x1024_S512x1024_1_1_0_0_n_n.contr.Idx) :
    (dot_S512x1024_S1024x1024_S512x1024_1_1_0_0_n_n.lhsIdx j k 0).val = (j 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- The left operand's column coordinate is the contraction index. -/
theorem lhs_dot_1 (j : S512x1024.Idx) (k : dot_S512x1024_S1024x1024_S512x1024_1_1_0_0_n_n.contr.Idx) :
    (dot_S512x1024_S1024x1024_S512x1024_1_1_0_0_n_n.lhsIdx j k 1).val = (k ⟨0, by decide⟩).val :=
  dot_S512x1024_S1024x1024_S512x1024_1_1_0_0_n_n.lhsIdx_val_of_single rfl j k
/-- The right operand's row coordinate is the output's column. -/
theorem rhs_dot_0 (j : S512x1024.Idx) (k : dot_S512x1024_S1024x1024_S512x1024_1_1_0_0_n_n.contr.Idx) :
    (dot_S512x1024_S1024x1024_S512x1024_1_1_0_0_n_n.rhsIdx j k 0).val = (j 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- The right operand's column coordinate is the contraction index. -/
theorem rhs_dot_1 (j : S512x1024.Idx) (k : dot_S512x1024_S1024x1024_S512x1024_1_1_0_0_n_n.contr.Idx) :
    (dot_S512x1024_S1024x1024_S512x1024_1_1_0_0_n_n.rhsIdx j k 1).val = (k ⟨0, by decide⟩).val :=
  dot_S512x1024_S1024x1024_S512x1024_1_1_0_0_n_n.rhsIdx_val_of_single rfl j k

/-- The block product into the zero accumulator, at (p, q), is `dot x w p q`: the sum over the contraction index is
    re-indexed by its one coordinate, and the two operand indices are (p, e) and (q, e). -/
theorem matmul_zero_eq_dot (x : FVec Ideal S512x1024 .bf16) (w : FVec Ideal S1024x1024 .bf16) (p : Fin 512) (q : Fin 1024) :
    matmul dot_S512x1024_S1024x1024_S512x1024_1_1_0_0_n_n none x w (constant S512x1024 .f32 0x00000000#32) (ix2 p q)
      = dot x w p q := by
  refine (Ideal.matmul_constant_zero_apply dot_S512x1024_S1024x1024_S512x1024_1_1_0_0_n_n none x w (ix2 p q)).trans ?_
  unfold dot
  rw [← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p q) ((ValueIdx.contrEquiv1 dot_S512x1024_S1024x1024_S512x1024_1_1_0_0_n_n 1024 rfl rfl).symm k) = ix2 p k := funext fun a => Fin.ext (by
    match a with
    | ⟨0, _⟩ => exact lhs_dot_0 _ _
    | ⟨1, _⟩ => exact (lhs_dot_1 _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm k) = ix2 q k := funext fun a => Fin.ext (by
    match a with
    | ⟨0, _⟩ => exact rhs_dot_0 _ _
    | ⟨1, _⟩ => exact (rhs_dot_1 _ _).trans hk)
  rw [el, er]

/-! ## Slabs of the scratch

Slab `g` of the 6 × 512 × 1024 scratch is the unit-thick rectangle at offset (g, 0, 0): its local index (u, p, q),
with `u` the one value of the unit axis, sits at scratch index (g, p, q). -/

/-- The zero offsets of a rank-2 rectangle are the constant zero function. -/
theorem hz2 : (![0, 0] : Fin 2 → Nat) = fun _ => 0 := funext fun a => by fin_cases a <;> rfl
/-- The zero offsets of a rank-3 rectangle are the constant zero function. -/
theorem hz3 : (![0, 0, 0] : Fin 3 → Nat) = fun _ => 0 := funext fun a => by fin_cases a <;> rfl

/-- Local index (u, p, q) of slab `g` is scratch index (g, p, q). -/
theorem slab_emb (g : Nat) (hg : g < 6) (inb : ∀ a, (![g, 0, 0] : Fin 3 → Nat) a + (![1, 512, 1024] : Fin 3 → Nat) a ≤ S6x512x1024.size a)
    (u : Fin 1) (p : Fin 512) (q : Fin 1024) :
    (Rect.unit (s := S6x512x1024) ![g, 0, 0] ![1, 512, 1024] inb).emb (ix3 u p q) = ix3 (⟨g, hg⟩ : Fin 6) p q :=
  funext fun a => Fin.ext (by
    match a with
    | ⟨0, _⟩ => show g + 1 * u.val = g; omega
    | ⟨1, _⟩ => show 0 + 1 * p.val = p.val; omega
    | ⟨2, _⟩ => show 0 + 1 * q.val = q.val; omega)

/-- Reading slab `g` out of the scratch at local (u, p, q) reads the scratch at (g, p, q). -/
theorem slab_ld (xs : Vec Ideal S6x512x1024 .f32) (g : Nat) (hg : g < 6)
    (inb : ∀ a, (![g, 0, 0] : Fin 3 → Nat) a + (![1, 512, 1024] : Fin 3 → Nat) a ≤ S6x512x1024.size a) (u : Fin 1) (p : Fin 512) (q : Fin 1024) :
    View.ld xs (Rect.unit (s := S6x512x1024) ![g, 0, 0] ![1, 512, 1024] inb) (ix3 u p q) = xs (ix3 (⟨g, hg⟩ : Fin 6) p q) :=
  congrArg xs (slab_emb g hg inb u p q)

/-- Slab `k` holds no index of another slab `g`: their first coordinates differ. -/
theorem not_mem_slab (k g : Nat) (hkg : k ≠ g) (hg : g < 6)
    (inb : ∀ a, (![k, 0, 0] : Fin 3 → Nat) a + (![1, 512, 1024] : Fin 3 → Nat) a ≤ S6x512x1024.size a) (p : Fin 512) (q : Fin 1024) :
    ix3 (⟨g, hg⟩ : Fin 6) p q ∉ (Rect.unit (s := S6x512x1024) ![k, 0, 0] ![1, 512, 1024] inb).set := by
  rw [Rect.mem_set_unit]
  intro h
  have h0 := h 0
  have e1 : ((ix3 (⟨g, hg⟩ : Fin 6) p q : S6x512x1024.Idx) 0).val = g := rfl
  have e2 : (![k, 0, 0] : Fin 3 → Nat) 0 = k := rfl
  have e3 : (![1, 512, 1024] : Fin 3 → Nat) 0 = 1 := rfl
  rw [e1, e2, e3] at h0
  omega

/-! ## One slab's update at an index

Every gate's store has the same value: the slab as it was, read as a 512 × 1024 matrix, plus the block product, put
back under a unit axis. The six payloads differ only in how the same operations are grouped. -/

/-- The update of a slab `s` by the block product of `x` and `w`, at local (u, p, q): `s[0,p,q] + dot x w p q`. -/
theorem slab_update (x : FVec Ideal S512x1024 .bf16) (w : FVec Ideal S1024x1024 .bf16) (s : FVec Ideal S1x512x1024 .f32)
    (u : Fin 1) (p : Fin 512) (q : Fin 1024) :
    (shapeCast S1x512x1024
        (addf (shapeCast S512x1024 s shapeCasts_S1x512x1024_S512x1024)
          (matmul dot_S512x1024_S1024x1024_S512x1024_1_1_0_0_n_n none (shapeCast S512x1024 x shapeCasts_S512x1024_S512x1024)
            (shapeCast S1024x1024 w shapeCasts_S1024x1024_S1024x1024) (constant S512x1024 .f32 0x00000000#32)))
        shapeCasts_S512x1024_S1x512x1024 : FVec Ideal S1x512x1024 .f32) (ix3 u p q)
      = s (ix3 (0 : Fin 1) p q) + dot x w p q := by
  refine (shapeCast_ab_1ab_apply _ shapeCasts_S512x1024_S1x512x1024 u p q).trans ?_
  refine (addf_apply _ _ (ix2 p q)).trans ?_
  rw [shapeCast_self x, shapeCast_self w]
  exact congrArg₂ (· + ·) (shapeCast_1ab_ab_apply s shapeCasts_S1x512x1024_S512x1024 p q) (matmul_zero_eq_dot x w p q)

/-- Gate 0's store. -/
theorem pay11_apply (x : Vec Ideal S512x1024 .bf16) (w : Vec Ideal S1024x1024 .bf16) (s : Vec Ideal S1x512x1024 .f32)
    (u : Fin 1) (p : Fin 512) (q : Fin 1024) :
    k0_pay11 (F := Ideal) x w s (ix3 u p q) = s (ix3 (0 : Fin 1) p q) + dot x w p q := by
  unfold k0_pay11 k0_pay10
  exact slab_update x w s u p q

/-- Gate 1's store. -/
theorem pay12_apply (x : Vec Ideal S512x1024 .bf16) (w : Vec Ideal S1024x1024 .bf16) (s : Vec Ideal S1x512x1024 .f32)
    (u : Fin 1) (p : Fin 512) (q : Fin 1024) :
    k0_pay12 (F := Ideal) x w s (ix3 u p q) = s (ix3 (0 : Fin 1) p q) + dot x w p q := by
  unfold k0_pay12 k0_pay10
  exact slab_update x w s u p q

/-- Gate 2's store. -/
theorem pay14_apply (x : Vec Ideal S512x1024 .bf16) (w : Vec Ideal S1024x1024 .bf16) (s : Vec Ideal S1x512x1024 .f32)
    (u : Fin 1) (p : Fin 512) (q : Fin 1024) :
    k0_pay14 (F := Ideal) (k0_pay13 x w) s (ix3 u p q) = s (ix3 (0 : Fin 1) p q) + dot x w p q := by
  unfold k0_pay14 k0_pay13 k0_pay10
  exact slab_update x w s u p q

/-- Gate 3's store. -/
theorem pay15_apply (x : Vec Ideal S512x1024 .bf16) (w : Vec Ideal S1024x1024 .bf16) (s : Vec Ideal S1x512x1024 .f32)
    (u : Fin 1) (p : Fin 512) (q : Fin 1024) :
    k0_pay15 (F := Ideal) (k0_pay10 x) w s (ix3 u p q) = s (ix3 (0 : Fin 1) p q) + dot x w p q := by
  unfold k0_pay15 k0_pay10
  exact slab_update x w s u p q

/-- Gate 4's store. -/
theorem pay16_apply (x : Vec Ideal S512x1024 .bf16) (w : Vec Ideal S1024x1024 .bf16) (s : Vec Ideal S1x512x1024 .f32)
    (u : Fin 1) (p : Fin 512) (q : Fin 1024) :
    k0_pay16 (F := Ideal) (k0_pay10 x) w s (ix3 u p q) = s (ix3 (0 : Fin 1) p q) + dot x w p q := by
  unfold k0_pay16 k0_pay10
  exact slab_update x w s u p q

/-- Gate 5's store. -/
theorem pay1_apply (x : Vec Ideal S512x1024 .bf16) (w : Vec Ideal S1024x1024 .bf16) (s : Vec Ideal S1x512x1024 .f32)
    (u : Fin 1) (p : Fin 512) (q : Fin 1024) :
    k0_pay1 (F := Ideal) (k0_pay17 (k0_pay10 x) w s) (ix3 u p q) = s (ix3 (0 : Fin 1) p q) + dot x w p q := by
  unfold k0_pay1 k0_pay17 k0_pay10
  exact slab_update x w s u p q

/-! ## What the six stores of an update leave -/

/-- The six slabs after one point's update, as one function of the scratch index: what was there plus the
    partial dot product of row `p` of the activation block with row `q` of gate `g`'s weight block. -/
def slabsAfter (xs : S6x512x1024.Idx → EReal) (x : S512x1024.Idx → EReal) (ws : Fin 6 → S1024x1024.Idx → EReal) :
    S6x512x1024.Idx → EReal := fun y => xs y + dot x (ws (y 0)) (y 1) (y 2)

/-- Stores made before a list of stores that already covers an index do not show there. -/
theorem canon_append_of_cover {S : Shape} {e : EltTy} (y : S.Idx) :
    ∀ (L T : List (View.Piece (Elt Ideal) S e)) (_ : ∃ pc ∈ L, y ∈ pc.1.set), View.canon (L ++ T) y = View.canon L y
  | [], _, h => by obtain ⟨pc, hpc, _⟩ := h; simp at hpc
  | pc :: L, T, h => by
    by_cases hm : y ∈ pc.1.set
    · obtain ⟨x, rfl⟩ := pc.1.exists_idx_of_mem hm
      show View.canon (⟨pc.1, pc.2⟩ :: (L ++ T)) (pc.1.emb x) = View.canon (⟨pc.1, pc.2⟩ :: L) (pc.1.emb x)
      rw [View.canon_cons_emb, View.canon_cons_emb]
    · show View.canon (pc :: (L ++ T)) y = View.canon (pc :: L) y
      rw [View.canon_cons_of_not_mem _ _ hm, View.canon_cons_of_not_mem _ _ hm]
      refine canon_append_of_cover y L T ?_
      obtain ⟨qc, hq, hyq⟩ := h
      rcases List.mem_cons.mp hq with rfl | hq'
      · exact absurd hyq hm
      · exact ⟨qc, hq', hyq⟩

/-- Six stores, one per slab, each storing the matching slab of ONE function `G` of the scratch index, leave `G` —
    whatever was stored before them (`T`). -/
theorem canon_slabs (G : S6x512x1024.Idx → EReal) (P5 P4 P3 P2 P1 P0 : Vec Ideal S1x512x1024 .f32)
    (T : List (View.Piece (Elt Ideal) S6x512x1024 .f32))
    (h5 : ∀ (u : Fin 1) (p : Fin 512) (q : Fin 1024), P5 (ix3 u p q) = G (ix3 (5 : Fin 6) p q))
    (h4 : ∀ (u : Fin 1) (p : Fin 512) (q : Fin 1024), P4 (ix3 u p q) = G (ix3 (4 : Fin 6) p q))
    (h3 : ∀ (u : Fin 1) (p : Fin 512) (q : Fin 1024), P3 (ix3 u p q) = G (ix3 (3 : Fin 6) p q))
    (h2 : ∀ (u : Fin 1) (p : Fin 512) (q : Fin 1024), P2 (ix3 u p q) = G (ix3 (2 : Fin 6) p q))
    (h1 : ∀ (u : Fin 1) (p : Fin 512) (q : Fin 1024), P1 (ix3 u p q) = G (ix3 (1 : Fin 6) p q))
    (h0 : ∀ (u : Fin 1) (p : Fin 512) (q : Fin 1024), P0 (ix3 u p q) = G (ix3 (0 : Fin 6) p q))
    (y : S6x512x1024.Idx) :
    View.canon (Val := Elt Ideal)
      (⟨Rect.unit ![5, 0, 0] ![1, 512, 1024] inb_S6x512x1024_S1x512x1024_5_0_0, P5⟩ ::
       ⟨Rect.unit ![4, 0, 0] ![1, 512, 1024] inb_S6x512x1024_S1x512x1024_4_0_0, P4⟩ ::
       ⟨Rect.unit ![3, 0, 0] ![1, 512, 1024] inb_S6x512x1024_S1x512x1024_3_0_0, P3⟩ ::
       ⟨Rect.unit ![2, 0, 0] ![1, 512, 1024] inb_S6x512x1024_S1x512x1024_2_0_0, P2⟩ ::
       ⟨Rect.unit ![1, 0, 0] ![1, 512, 1024] inb_S6x512x1024_S1x512x1024_1_0_0, P1⟩ ::
       ⟨Rect.unit ![0, 0, 0] ![1, 512, 1024] inb_S6x512x1024_S1x512x1024_0_0_0, P0⟩ :: T) y = G y := by
  have hcover := View.cover_of_tiledL (s := S6x512x1024) (Val := Elt Ideal) (e := .f32)
      [⟨Rect.unit ![5, 0, 0] ![1, 512, 1024] inb_S6x512x1024_S1x512x1024_5_0_0, P5⟩,
       ⟨Rect.unit ![4, 0, 0] ![1, 512, 1024] inb_S6x512x1024_S1x512x1024_4_0_0, P4⟩,
       ⟨Rect.unit ![3, 0, 0] ![1, 512, 1024] inb_S6x512x1024_S1x512x1024_3_0_0, P3⟩,
       ⟨Rect.unit ![2, 0, 0] ![1, 512, 1024] inb_S6x512x1024_S1x512x1024_2_0_0, P2⟩,
       ⟨Rect.unit ![1, 0, 0] ![1, 512, 1024] inb_S6x512x1024_S1x512x1024_1_0_0, P1⟩,
       ⟨Rect.unit ![0, 0, 0] ![1, 512, 1024] inb_S6x512x1024_S1x512x1024_0_0_0, P0⟩] ![1, 512, 1024] (by sl_kernel_rfl) y
  refine (canon_append_of_cover y _ T hcover).trans ?_
  refine View.canon_apply_of_pieces (Val := Elt Ideal) (S := S6x512x1024) (e := .f32) G _ ?_ y hcover
  intro pc hpc x
  simp only [List.mem_cons, List.mem_nil_iff, or_false] at hpc
  rcases hpc with rfl | rfl | rfl | rfl | rfl | rfl
  · obtain ⟨u, p, q, rfl⟩ : ∃ (u : Fin 1) (p : Fin 512) (q : Fin 1024), x = ix3 u p q := ⟨x 0, x 1, x 2, eq_ix3 x⟩
    exact (h5 u p q).trans (congrArg G (slab_emb 5 (by decide) inb_S6x512x1024_S1x512x1024_5_0_0 u p q).symm)
  · obtain ⟨u, p, q, rfl⟩ : ∃ (u : Fin 1) (p : Fin 512) (q : Fin 1024), x = ix3 u p q := ⟨x 0, x 1, x 2, eq_ix3 x⟩
    exact (h4 u p q).trans (congrArg G (slab_emb 4 (by decide) inb_S6x512x1024_S1x512x1024_4_0_0 u p q).symm)
  · obtain ⟨u, p, q, rfl⟩ : ∃ (u : Fin 1) (p : Fin 512) (q : Fin 1024), x = ix3 u p q := ⟨x 0, x 1, x 2, eq_ix3 x⟩
    exact (h3 u p q).trans (congrArg G (slab_emb 3 (by decide) inb_S6x512x1024_S1x512x1024_3_0_0 u p q).symm)
  · obtain ⟨u, p, q, rfl⟩ : ∃ (u : Fin 1) (p : Fin 512) (q : Fin 1024), x = ix3 u p q := ⟨x 0, x 1, x 2, eq_ix3 x⟩
    exact (h2 u p q).trans (congrArg G (slab_emb 2 (by decide) inb_S6x512x1024_S1x512x1024_2_0_0 u p q).symm)
  · obtain ⟨u, p, q, rfl⟩ : ∃ (u : Fin 1) (p : Fin 512) (q : Fin 1024), x = ix3 u p q := ⟨x 0, x 1, x 2, eq_ix3 x⟩
    exact (h1 u p q).trans (congrArg G (slab_emb 1 (by decide) inb_S6x512x1024_S1x512x1024_1_0_0 u p q).symm)
  · obtain ⟨u, p, q, rfl⟩ : ∃ (u : Fin 1) (p : Fin 512) (q : Fin 1024), x = ix3 u p q := ⟨x 0, x 1, x 2, eq_ix3 x⟩
    exact (h0 u p q).trans (congrArg G (slab_emb 0 (by decide) inb_S6x512x1024_S1x512x1024_0_0_0 u p q).symm)

section Update
variable (xs0 : Vec Ideal S6x512x1024 .f32) (x0 : Vec Ideal S512x1024 .bf16) (x1 x2 x3 x4 x5 x6 : Vec Ideal S1024x1024 .bf16)

/-- The six stores of one point's update, last store first: slab `g` gets what it held plus the partial dot product
    with gate `g`'s weight block. -/
abbrev updatePieces : List (View.Piece (Elt Ideal) S6x512x1024 .f32) :=
      [⟨Rect.unit ![5, 0, 0] ![1, 512, 1024] inb_S6x512x1024_S1x512x1024_5_0_0, k0_pay1 (k0_pay17 (k0_pay10 x0) x6 (View.ld xs0 (Rect.unit ![5, 0, 0] ![1, 512, 1024] inb_S6x512x1024_S1x512x1024_5_0_0)))⟩,
       ⟨Rect.unit ![4, 0, 0] ![1, 512, 1024] inb_S6x512x1024_S1x512x1024_4_0_0, k0_pay16 (k0_pay10 x0) x5 (View.ld xs0 (Rect.unit ![4, 0, 0] ![1, 512, 1024] inb_S6x512x1024_S1x512x1024_4_0_0))⟩,
       ⟨Rect.unit ![3, 0, 0] ![1, 512, 1024] inb_S6x512x1024_S1x512x1024_3_0_0, k0_pay15 (k0_pay10 x0) x4 (View.ld xs0 (Rect.unit ![3, 0, 0] ![1, 512, 1024] inb_S6x512x1024_S1x512x1024_3_0_0))⟩,
       ⟨Rect.unit ![2, 0, 0] ![1, 512, 1024] inb_S6x512x1024_S1x512x1024_2_0_0, k0_pay14 (k0_pay13 x0 x3) (View.ld xs0 (Rect.unit ![2, 0, 0] ![1, 512, 1024] inb_S6x512x1024_S1x512x1024_2_0_0))⟩,
       ⟨Rect.unit ![1, 0, 0] ![1, 512, 1024] inb_S6x512x1024_S1x512x1024_1_0_0, k0_pay12 x0 x2 (View.ld xs0 (Rect.unit ![1, 0, 0] ![1, 512, 1024] inb_S6x512x1024_S1x512x1024_1_0_0))⟩,
       ⟨Rect.unit ![0, 0, 0] ![1, 512, 1024] inb_S6x512x1024_S1x512x1024_0_0_0, k0_pay11 x0 x1 (View.ld xs0 (Rect.unit ![0, 0, 0] ![1, 512, 1024] inb_S6x512x1024_S1x512x1024_0_0_0))⟩]

/-- What the six stores of an update leave, after whatever was stored before them. -/
theorem updated_slabs (T : List (View.Piece (Elt Ideal) S6x512x1024 .f32)) (y : S6x512x1024.Idx) :
    View.canon (updatePieces xs0 x0 x1 x2 x3 x4 x5 x6 ++ T) y = slabsAfter xs0 x0 (wsel x1 x2 x3 x4 x5 x6) y := by
  refine canon_slabs (slabsAfter xs0 x0 (wsel x1 x2 x3 x4 x5 x6)) _ _ _ _ _ _ T ?_ ?_ ?_ ?_ ?_ ?_ y
  · intro u p q
    exact (pay1_apply x0 x6 _ u p q).trans (congrArg (· + dot x0 x6 p q) (slab_ld xs0 5 (by decide) _ 0 p q))
  · intro u p q
    exact (pay16_apply x0 x5 _ u p q).trans (congrArg (· + dot x0 x5 p q) (slab_ld xs0 4 (by decide) _ 0 p q))
  · intro u p q
    exact (pay15_apply x0 x4 _ u p q).trans (congrArg (· + dot x0 x4 p q) (slab_ld xs0 3 (by decide) _ 0 p q))
  · intro u p q
    exact (pay14_apply x0 x3 _ u p q).trans (congrArg (· + dot x0 x3 p q) (slab_ld xs0 2 (by decide) _ 0 p q))
  · intro u p q
    exact (pay12_apply x0 x2 _ u p q).trans (congrArg (· + dot x0 x2 p q) (slab_ld xs0 1 (by decide) _ 0 p q))
  · intro u p q
    exact (pay11_apply x0 x1 _ u p q).trans (congrArg (· + dot x0 x1 p q) (slab_ld xs0 0 (by decide) _ 0 p q))

/-- A load of slab `g` after the six stores of an update reads the updated slab. -/
theorem updated_readback {σ : RefSig} {κ : Kind} {sp : Space} (v : View σ κ sp S6x512x1024 .f32) (g : Nat) (hg : g < 6)
    (inb : ∀ a, (![g, 0, 0] : Fin 3 → Nat) a + (![1, 512, 1024] : Fin 3 → Nat) a ≤ S6x512x1024.size a)
    (u : Fin 1) (p : Fin 512) (q : Fin 1024) :
    v.readCov (updatePieces xs0 x0 x1 x2 x3 x4 x5 x6) (Rect.unit (s := S6x512x1024) ![g, 0, 0] ![1, 512, 1024] inb).toLoadRect (ix3 u p q)
      = xs0 (ix3 (⟨g, hg⟩ : Fin 6) p q) + dot x0 (wsel x1 x2 x3 x4 x5 x6 ⟨g, hg⟩) p q := by
  rw [View.readCov_eq_canon']
  show View.canon _ ((Rect.unit (s := S6x512x1024) ![g, 0, 0] ![1, 512, 1024] inb).emb (ix3 u p q)) = _
  rw [slab_emb g hg inb u p q]
  exact updated_slabs xs0 x0 x1 x2 x3 x4 x5 x6 [] _

end Update

/-! ## The first point of a run: the zero fill read back

At the first point the whole scratch is filled with zeros before the six updates, and the update of slab `g` loads slab
`g` after the zero fill and after the stores into the slabs below `g` only: it reads zeros. -/

/-- The zero fill of the whole scratch is zero at every index. -/
theorem pay9_apply (y : S6x512x1024.Idx) : k0_pay9 (F := Ideal) y = 0 := by
  unfold k0_pay9
  refine (congrFun (shapeCast_self _ shapeCasts_S6x512x1024_S6x512x1024) y).trans ?_
  exact Ideal.ofBits_zero_f32

/-- At an index none of the later stores `L` holds, the contents are what the first store, the zero fill of the whole
    scratch, left: zero. -/
theorem canon_fresh : ∀ (L : List (View.Piece (Elt Ideal) S6x512x1024 .f32)) (y : S6x512x1024.Idx)
    (_ : ∀ pc ∈ L, y ∉ pc.1.set),
    View.canon (L ++ [⟨Rect.unit ![0, 0, 0] ![6, 512, 1024] inb_S6x512x1024_S6x512x1024_0_0_0, k0_pay9 (F := Ideal)⟩]) y = 0
  | [], y, _ => by
    show View.canon [(⟨Rect.unit ![0, 0, 0] S6x512x1024.size inb_S6x512x1024_S6x512x1024_0_0_0, k0_pay9 (F := Ideal)⟩ : View.Piece (Elt Ideal) S6x512x1024 .f32)] y = 0
    rw [View.canon_unit_zero hz3]
    exact pay9_apply y
  | pc :: L, y, h => by
    show View.canon (pc :: (L ++ _)) y = 0
    rw [View.canon_cons_of_not_mem _ _ (h pc List.mem_cons_self)]
    exact canon_fresh L y fun qc hq => h qc (List.mem_cons_of_mem _ hq)

/-- A load of slab `g` after the zero fill and stores into other slabs only reads zeros. -/
theorem fresh_readback {σ : RefSig} {κ : Kind} {sp : Space} (v : View σ κ sp S6x512x1024 .f32)
    (L : List (View.Piece (Elt Ideal) S6x512x1024 .f32)) (g : Nat) (hg : g < 6)
    (inb : ∀ a, (![g, 0, 0] : Fin 3 → Nat) a + (![1, 512, 1024] : Fin 3 → Nat) a ≤ S6x512x1024.size a)
    (u : Fin 1) (p : Fin 512) (q : Fin 1024) (hL : ∀ pc ∈ L, ix3 (⟨g, hg⟩ : Fin 6) p q ∉ pc.1.set) :
    v.readCov (L ++ [⟨Rect.unit ![0, 0, 0] ![6, 512, 1024] inb_S6x512x1024_S6x512x1024_0_0_0, k0_pay9 (F := Ideal)⟩])
      (Rect.unit (s := S6x512x1024) ![g, 0, 0] ![1, 512, 1024] inb).toLoadRect (ix3 u p q) = 0 := by
  rw [View.readCov_eq_canon']
  show View.canon _ ((Rect.unit (s := S6x512x1024) ![g, 0, 0] ![1, 512, 1024] inb).emb (ix3 u p q)) = _
  rw [slab_emb g hg inb u p q]
  exact canon_fresh L _ hL

/-! ## The last point of a run: the gates -/

/-- A slab read as a 512 × 1024 matrix plus its bias row broadcast down the rows. -/
theorem slab_plus_bias (s : FVec Ideal S1x512x1024 .f32) (b : FVec Ideal S1x1024 .f32) (p : Fin 512) (q : Fin 1024) :
    (addf (shapeCast S512x1024 s shapeCasts_S1x512x1024_S512x1024)
        (broadcastTo S512x1024 (shapeCast S1x1024 b shapeCasts_S1x1024_S1x1024) broadcasts_S1x1024_S512x1024)
      : FVec Ideal S512x1024 .f32) (ix2 p q)
      = s (ix3 (0 : Fin 1) p q) + b (ix2 (0 : Fin 1) q) := by
  refine (addf_apply _ _ (ix2 p q)).trans ?_
  refine congrArg₂ (· + ·) (shapeCast_1ab_ab_apply s shapeCasts_S1x512x1024_S512x1024 p q) ?_
  refine (broadcastTo_1b_ab_apply _ broadcasts_S1x1024_S512x1024 p q).trans ?_
  exact congrFun (shapeCast_self b shapeCasts_S1x1024_S1x1024) _

/-- Gate 0's slab with its bias added, at (p, q). -/
theorem pay3_apply (s : Vec Ideal S1x512x1024 .f32) (b : Vec Ideal S1x1024 .f32) (p : Fin 512) (q : Fin 1024) :
    k0_pay3 (F := Ideal) s b (ix2 p q) = s (ix3 (0 : Fin 1) p q) + b (ix2 (0 : Fin 1) q) := by
  unfold k0_pay3
  exact slab_plus_bias s b p q
/-- Gate 1's slab with its bias added, at (p, q). -/
theorem pay4_apply (s : Vec Ideal S1x512x1024 .f32) (b : Vec Ideal S1x1024 .f32) (p : Fin 512) (q : Fin 1024) :
    k0_pay4 (F := Ideal) s b (ix2 p q) = s (ix3 (0 : Fin 1) p q) + b (ix2 (0 : Fin 1) q) := by
  unfold k0_pay4
  exact slab_plus_bias s b p q
/-- Gate 2's slab with its bias added, at (p, q). -/
theorem pay5_apply (s : Vec Ideal S1x512x1024 .f32) (b : Vec Ideal S1x1024 .f32) (p : Fin 512) (q : Fin 1024) :
    k0_pay5 (F := Ideal) s b (ix2 p q) = s (ix3 (0 : Fin 1) p q) + b (ix2 (0 : Fin 1) q) := by
  unfold k0_pay5
  exact slab_plus_bias s b p q
/-- Gate 3's slab with its bias added, at (p, q). -/
theorem pay6_apply (s : Vec Ideal S1x512x1024 .f32) (b : Vec Ideal S1x1024 .f32) (p : Fin 512) (q : Fin 1024) :
    k0_pay6 (F := Ideal) s b (ix2 p q) = s (ix3 (0 : Fin 1) p q) + b (ix2 (0 : Fin 1) q) := by
  unfold k0_pay6
  exact slab_plus_bias s b p q
/-- Gate 4's slab with its bias added, at (p, q). -/
theorem pay7_apply (s : Vec Ideal S1x512x1024 .f32) (b : Vec Ideal S1x1024 .f32) (p : Fin 512) (q : Fin 1024) :
    k0_pay7 (F := Ideal) s b (ix2 p q) = s (ix3 (0 : Fin 1) p q) + b (ix2 (0 : Fin 1) q) := by
  unfold k0_pay7
  exact slab_plus_bias s b p q
/-- Gate 5's slab read as a 512 × 1024 matrix, at (p, q). -/
theorem pay8_apply (s : Vec Ideal S1x512x1024 .f32) (p : Fin 512) (q : Fin 1024) :
    k0_pay8 (F := Ideal) s (ix2 p q) = s (ix3 (0 : Fin 1) p q) := by
  unfold k0_pay8
  exact shapeCast_1ab_ab_apply s shapeCasts_S1x512x1024_S512x1024 p q

/-- The gate arithmetic is entry by entry: at each position it is `combine` of the seven entries there. -/
theorem gates_pointwise (ir iz inn hr hz hn hid : FVec Ideal S512x1024 .f32) (j : S512x1024.Idx) :
    (addf (mulf (subf (broadcast S512x1024 (Scalar.ofBits .f32 0x3F800000#32)) (logistic (addf iz hz))) hid)
        (mulf (logistic (addf iz hz)) (logistic (addf inn (mulf (logistic (addf ir hr)) hn))))
      : FVec Ideal S512x1024 .f32) j
      = Cert.Gru.combine (ir j) (iz j) (inn j) (hr j) (hz j) (hn j) (hid j) := by
  unfold Cert.Gru.combine
  refine Eq.trans (b := (Ideal.ofBits .f32 0x3F800000#32 - Ideal.logistic (iz j + hz j)) * hid j
      + Ideal.logistic (iz j + hz j) * Ideal.logistic (inn j + Ideal.logistic (ir j + hr j) * hn j)) rfl ?_
  rw [Ideal.ofBits_one_f32]

/-- The output block at (p, q): `combine` of the five biased slab values, the sixth slab value with its bias entry
    added, and the hidden entry. -/
theorem pay2_apply (ir iz inn hr hz hn : FVec Ideal S512x1024 .f32) (b : Vec Ideal S1x1024 .f32) (hid : Vec Ideal S512x1024 .f32)
    (p : Fin 512) (q : Fin 1024) :
    k0_pay2 (F := Ideal) ir iz inn hr hz hn b hid (ix2 p q)
      = Cert.Gru.combine (ir (ix2 p q)) (iz (ix2 p q)) (inn (ix2 p q)) (hr (ix2 p q)) (hz (ix2 p q))
          (hn (ix2 p q) + b (ix2 (0 : Fin 1) q)) (hid (ix2 p q)) := by
  unfold k0_pay2
  refine (gates_pointwise ir iz inn hr hz _ hid (ix2 p q)).trans ?_
  refine congrArg (fun t => Cert.Gru.combine _ _ _ _ _ t _) ?_
  refine (addf_apply _ _ (ix2 p q)).trans (congrArg (hn (ix2 p q) + ·) ?_)
  refine (broadcastTo_1b_ab_apply _ broadcasts_S1x1024_S512x1024 p q).trans ?_
  exact congrFun (shapeCast_self b shapeCasts_S1x1024_S1x1024) _

/-- `combine` of equal entries. -/
theorem combine_congr {a a' b b' c c' d d' e e' f f' : EReal} (h : EReal)
    (ha : a = a') (hb : b = b') (hc : c = c') (hd : d = d') (he : e = e') (hf : f = f') :
    Cert.Gru.combine a b c d e f h = Cert.Gru.combine a' b' c' d' e' f' h := by
  rw [ha, hb, hc, hd, he, hf]

/-! ## What each control case leaves -/

variable (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S6x512x1024 .f32) (harg18 : arg18.IsWhole)
variable (x0 : Vec Ideal S512x1024 .bf16) (x1 x2 x3 x4 x5 x6 : Vec Ideal S1024x1024 .bf16)
  (x7 x8 x9 x10 x11 x12 : Vec Ideal S1x1024 .f32) (x13 : Vec Ideal S512x1024 .f32)

/-- First point of a run: the slabs are zeroed, then each gets its partial dot product. -/
theorem scratch_A (hc0 : cond0_0 i) (hc1 : ¬cond0_1 i) (g : Fin 6) (p : Fin 512) (q : Fin 1024) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 (ix3 g p q)
      = 0 + dot x0 (wsel x1 x2 x3 x4 x5 x6 g) p q := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13)]
  unfold kernelRun0_A
  dsimp only
  sl_unfold_words
  simp only [View.readAt_eq_ld, harg3.read_unread, harg4.read_unread, harg5.read_unread, harg6.read_unread,
    harg7.read_unread, harg8.read_unread, harg9.read_unread,
    View.ld_unit_zero (S := S512x1024) hz2, View.ld_unit_zero (S := S1024x1024) hz2]
  refine canon_slabs (slabsAfter (fun _ => 0) x0 (wsel x1 x2 x3 x4 x5 x6)) _ _ _ _ _ _ [_] ?_ ?_ ?_ ?_ ?_ ?_ (ix3 g p q)
  · intro u p q
    refine (pay1_apply x0 x6 _ u p q).trans (congrArg (· + dot x0 x6 p q) ?_)
    refine fresh_readback arg18.view [_, _, _, _, _] 5 (by decide) _ 0 p q ?_
    intro pc hpc
    simp only [List.mem_cons, List.mem_nil_iff, or_false] at hpc
    rcases hpc with rfl | rfl | rfl | rfl | rfl
    · exact not_mem_slab 4 5 (by decide) (by decide) inb_S6x512x1024_S1x512x1024_4_0_0 p q
    · exact not_mem_slab 3 5 (by decide) (by decide) inb_S6x512x1024_S1x512x1024_3_0_0 p q
    · exact not_mem_slab 2 5 (by decide) (by decide) inb_S6x512x1024_S1x512x1024_2_0_0 p q
    · exact not_mem_slab 1 5 (by decide) (by decide) inb_S6x512x1024_S1x512x1024_1_0_0 p q
    · exact not_mem_slab 0 5 (by decide) (by decide) inb_S6x512x1024_S1x512x1024_0_0_0 p q
  · intro u p q
    refine (pay16_apply x0 x5 _ u p q).trans (congrArg (· + dot x0 x5 p q) ?_)
    refine fresh_readback arg18.view [_, _, _, _] 4 (by decide) _ 0 p q ?_
    intro pc hpc
    simp only [List.mem_cons, List.mem_nil_iff, or_false] at hpc
    rcases hpc with rfl | rfl | rfl | rfl
    · exact not_mem_slab 3 4 (by decide) (by decide) inb_S6x512x1024_S1x512x1024_3_0_0 p q
    · exact not_mem_slab 2 4 (by decide) (by decide) inb_S6x512x1024_S1x512x1024_2_0_0 p q
    · exact not_mem_slab 1 4 (by decide) (by decide) inb_S6x512x1024_S1x512x1024_1_0_0 p q
    · exact not_mem_slab 0 4 (by decide) (by decide) inb_S6x512x1024_S1x512x1024_0_0_0 p q
  · intro u p q
    refine (pay15_apply x0 x4 _ u p q).trans (congrArg (· + dot x0 x4 p q) ?_)
    refine fresh_readback arg18.view [_, _, _] 3 (by decide) _ 0 p q ?_
    intro pc hpc
    simp only [List.mem_cons, List.mem_nil_iff, or_false] at hpc
    rcases hpc with rfl | rfl | rfl
    · exact not_mem_slab 2 3 (by decide) (by decide) inb_S6x512x1024_S1x512x1024_2_0_0 p q
    · exact not_mem_slab 1 3 (by decide) (by decide) inb_S6x512x1024_S1x512x1024_1_0_0 p q
    · exact not_mem_slab 0 3 (by decide) (by decide) inb_S6x512x1024_S1x512x1024_0_0_0 p q
  · intro u p q
    refine (pay14_apply x0 x3 _ u p q).trans (congrArg (· + dot x0 x3 p q) ?_)
    refine fresh_readback arg18.view [_, _] 2 (by decide) _ 0 p q ?_
    intro pc hpc
    simp only [List.mem_cons, List.mem_nil_iff, or_false] at hpc
    rcases hpc with rfl | rfl
    · exact not_mem_slab 1 2 (by decide) (by decide) inb_S6x512x1024_S1x512x1024_1_0_0 p q
    · exact not_mem_slab 0 2 (by decide) (by decide) inb_S6x512x1024_S1x512x1024_0_0_0 p q
  · intro u p q
    refine (pay12_apply x0 x2 _ u p q).trans (congrArg (· + dot x0 x2 p q) ?_)
    refine fresh_readback arg18.view [_] 1 (by decide) _ 0 p q ?_
    intro pc hpc
    simp only [List.mem_cons, List.mem_nil_iff, or_false] at hpc
    rcases hpc with rfl
    exact not_mem_slab 0 1 (by decide) (by decide) inb_S6x512x1024_S1x512x1024_0_0_0 p q
  · intro u p q
    refine (pay11_apply x0 x1 _ u p q).trans (congrArg (· + dot x0 x1 p q) ?_)
    exact fresh_readback arg18.view [] 0 (by decide) _ 0 p q (fun pc hpc => absurd hpc List.not_mem_nil)

/-- A middle point: each slab keeps what the point before left (`xs0`) plus its partial dot product. -/
theorem scratch_B (hc0 : ¬cond0_0 i) (hc1 : ¬cond0_1 i) (xs0 : Vec Ideal S6x512x1024 .f32)
    (g : Fin 6) (p : Fin 512) (q : Fin 1024) :
    sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs0 (ix3 g p q)
      = xs0 (ix3 g p q) + dot x0 (wsel x1 x2 x3 x4 x5 x6 g) p q := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs0)]
  unfold kernelRun0_B
  dsimp only
  sl_unfold_words
  simp only [View.readAt_eq_ld, harg3.read_unread, harg4.read_unread, harg5.read_unread, harg6.read_unread,
    harg7.read_unread, harg8.read_unread, harg9.read_unread, harg18.read_unread,
    View.ld_unit_zero (S := S512x1024) hz2, View.ld_unit_zero (S := S1024x1024) hz2]
  exact updated_slabs xs0 x0 x1 x2 x3 x4 x5 x6 [] (ix3 g p q)

/-- The last point of a run updates the slabs the same way. -/
theorem scratch_C (hc0 : ¬cond0_0 i) (hc1 : cond0_1 i) (xs0 : Vec Ideal S6x512x1024 .f32)
    (g : Fin 6) (p : Fin 512) (q : Fin 1024) :
    sout0_C_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs0 (ix3 g p q)
      = xs0 (ix3 g p q) + dot x0 (wsel x1 x2 x3 x4 x5 x6 g) p q := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs0)]
  unfold kernelRun0_C
  dsimp only
  sl_unfold_words
  simp only [View.readAt_eq_ld, harg3.read_unread, harg4.read_unread, harg5.read_unread, harg6.read_unread,
    harg7.read_unread, harg8.read_unread, harg9.read_unread, harg18.read_unread,
    View.ld_unit_zero (S := S512x1024) hz2, View.ld_unit_zero (S := S1024x1024) hz2]
  exact updated_slabs xs0 x0 x1 x2 x3 x4 x5 x6 [] (ix3 g p q)

/-- … and then writes the output block: the gate combination of the six updated slab values with their biases and
    the hidden entry. -/
theorem out_C (hc0 : ¬cond0_0 i) (hc1 : cond0_1 i) (xs0 : Vec Ideal S6x512x1024 .f32) (p : Fin 512) (q : Fin 1024) :
    out0_C_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs0 (ix2 p q)
      = Cert.Gru.combine
          (xs0 (ix3 (0 : Fin 6) p q) + dot x0 x1 p q + x7 (ix2 (0 : Fin 1) q))
          (xs0 (ix3 (1 : Fin 6) p q) + dot x0 x2 p q + x8 (ix2 (0 : Fin 1) q))
          (xs0 (ix3 (2 : Fin 6) p q) + dot x0 x3 p q + x9 (ix2 (0 : Fin 1) q))
          (xs0 (ix3 (3 : Fin 6) p q) + dot x0 x4 p q + x10 (ix2 (0 : Fin 1) q))
          (xs0 (ix3 (4 : Fin 6) p q) + dot x0 x5 p q + x11 (ix2 (0 : Fin 1) q))
          (xs0 (ix3 (5 : Fin 6) p q) + dot x0 x6 p q + x12 (ix2 (0 : Fin 1) q))
          (x13 (ix2 p q)) := by
  unfold out0_C_14
  rw [View.read_writes_eq_canon _ _ _ (cover0_C_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs0)]
  unfold kernelRun0_C
  dsimp only
  sl_unfold_words
  simp only [View.readAt_eq_ld, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread, harg18.read_unread,
    View.ld_unit_zero (S := S512x1024) hz2, View.ld_unit_zero (S := S1024x1024) hz2, View.ld_unit_zero (S := S1x1024) hz2]
  rw [View.canon_unit_zero hz2]
  refine (pay2_apply _ _ _ _ _ _ x12 x13 p q).trans ?_
  refine combine_congr _ ?_ ?_ ?_ ?_ ?_ ?_
  · exact (pay3_apply _ x7 p q).trans (congrArg (· + x7 (ix2 (0 : Fin 1) q))
      (updated_readback xs0 x0 x1 x2 x3 x4 x5 x6 arg18.view 0 (by decide) _ 0 p q))
  · exact (pay4_apply _ x8 p q).trans (congrArg (· + x8 (ix2 (0 : Fin 1) q))
      (updated_readback xs0 x0 x1 x2 x3 x4 x5 x6 arg18.view 1 (by decide) _ 0 p q))
  · exact (pay5_apply _ x9 p q).trans (congrArg (· + x9 (ix2 (0 : Fin 1) q))
      (updated_readback xs0 x0 x1 x2 x3 x4 x5 x6 arg18.view 2 (by decide) _ 0 p q))
  · exact (pay6_apply _ x10 p q).trans (congrArg (· + x10 (ix2 (0 : Fin 1) q))
      (updated_readback xs0 x0 x1 x2 x3 x4 x5 x6 arg18.view 3 (by decide) _ 0 p q))
  · exact (pay7_apply _ x11 p q).trans (congrArg (· + x11 (ix2 (0 : Fin 1) q))
      (updated_readback xs0 x0 x1 x2 x3 x4 x5 x6 arg18.view 4 (by decide) _ 0 p q))
  · exact congrArg (· + x12 (ix2 (0 : Fin 1) q)) ((pay8_apply _ p q).trans
      (updated_readback xs0 x0 x1 x2 x3 x4 x5 x6 arg18.view 5 (by decide) _ 0 p q))

end Cert.Gru.Body

end
-- ==== Proof.BlockReads.lean ====
/-
  Each window's block at a grid point, read through to the argument arrays, over the extended reals.

  The grid has 16 × 4 × 4 points; point `t` has batch tile `t / 16`, output-feature tile `t / 4 % 4` and
  contraction tile `t % 4`. The activations' window holds rows `512·(t/16) …` and features `1024·(t%4) …` of the
  first argument (the host casts it to a narrower float format first, which changes no value here); gate `g`'s weight
  window holds rows `1024·(t/4%4) …` and features `1024·(t%4) …` of that gate's weight; a bias window holds entries
  `1024·(t/4%4) …` of that gate's bias (reshaped to one row by the host); the hidden window holds rows
  `512·(t/16) …` and columns `1024·(t/4%4) …` of the second argument.
-/
import proofs.«134069_j83116207112676_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.Gru.Blocks

open Cert.KernelIdeal Cert.KernelIdeal.Gen Idealize.ShloMosaic Idealize.ShloMosaic.TcCoe Idealize.ShloMosaic.Tactic
open Idealize.ShloMosaic.ValueIdx Idealize.SL.Sem

variable (m : (ℓ : Loc nD τ sig) → Buf (Elt Ideal) ℓ)

/-- The argument arrays as launched, at their literal types. -/
abbrev argX (c : Dev nD) : Vec Ideal S8192x4096 .f32 := m ((c : Thread nD τ).loc main_arg0)
abbrev argHid (c : Dev nD) : Vec Ideal S8192x4096 .f32 := m ((c : Thread nD τ).loc main_arg1)
abbrev argW1 (c : Dev nD) : Vec Ideal S4096x4096 .f32 := m ((c : Thread nD τ).loc main_arg2)
abbrev argW2 (c : Dev nD) : Vec Ideal S4096x4096 .f32 := m ((c : Thread nD τ).loc main_arg4)
abbrev argW3 (c : Dev nD) : Vec Ideal S4096x4096 .f32 := m ((c : Thread nD τ).loc main_arg6)
abbrev argW4 (c : Dev nD) : Vec Ideal S4096x4096 .f32 := m ((c : Thread nD τ).loc main_arg8)
abbrev argW5 (c : Dev nD) : Vec Ideal S4096x4096 .f32 := m ((c : Thread nD τ).loc main_arg10)
abbrev argW6 (c : Dev nD) : Vec Ideal S4096x4096 .f32 := m ((c : Thread nD τ).loc main_arg12)
abbrev argB1 (c : Dev nD) : Vec Ideal S4096 .f32 := m ((c : Thread nD τ).loc main_arg3)
abbrev argB2 (c : Dev nD) : Vec Ideal S4096 .f32 := m ((c : Thread nD τ).loc main_arg5)
abbrev argB3 (c : Dev nD) : Vec Ideal S4096 .f32 := m ((c : Thread nD τ).loc main_arg7)
abbrev argB4 (c : Dev nD) : Vec Ideal S4096 .f32 := m ((c : Thread nD τ).loc main_arg9)
abbrev argB5 (c : Dev nD) : Vec Ideal S4096 .f32 := m ((c : Thread nD τ).loc main_arg11)
abbrev argB6 (c : Dev nD) : Vec Ideal S4096 .f32 := m ((c : Thread nD τ).loc main_arg13)

/-- The windows' blocks at point `t`, at their literal types. -/
abbrev xblk (c : Dev nD) (t : Fin cfg0.N) : Vec Ideal S512x1024 .bf16 := iblk m c 0 t
abbrev wblk1 (c : Dev nD) (t : Fin cfg0.N) : Vec Ideal S1024x1024 .bf16 := iblk m c 1 t
abbrev wblk2 (c : Dev nD) (t : Fin cfg0.N) : Vec Ideal S1024x1024 .bf16 := iblk m c 2 t
abbrev wblk3 (c : Dev nD) (t : Fin cfg0.N) : Vec Ideal S1024x1024 .bf16 := iblk m c 3 t
abbrev wblk4 (c : Dev nD) (t : Fin cfg0.N) : Vec Ideal S1024x1024 .bf16 := iblk m c 4 t
abbrev wblk5 (c : Dev nD) (t : Fin cfg0.N) : Vec Ideal S1024x1024 .bf16 := iblk m c 5 t
abbrev wblk6 (c : Dev nD) (t : Fin cfg0.N) : Vec Ideal S1024x1024 .bf16 := iblk m c 6 t
abbrev bblk1 (c : Dev nD) (t : Fin cfg0.N) : Vec Ideal S1x1024 .f32 := iblk m c 7 t
abbrev bblk2 (c : Dev nD) (t : Fin cfg0.N) : Vec Ideal S1x1024 .f32 := iblk m c 8 t
abbrev bblk3 (c : Dev nD) (t : Fin cfg0.N) : Vec Ideal S1x1024 .f32 := iblk m c 9 t
abbrev bblk4 (c : Dev nD) (t : Fin cfg0.N) : Vec Ideal S1x1024 .f32 := iblk m c 10 t
abbrev bblk5 (c : Dev nD) (t : Fin cfg0.N) : Vec Ideal S1x1024 .f32 := iblk m c 11 t
abbrev bblk6 (c : Dev nD) (t : Fin cfg0.N) : Vec Ideal S1x1024 .f32 := iblk m c 12 t
abbrev hblk (c : Dev nD) (t : Fin cfg0.N) : Vec Ideal S512x1024 .f32 := iblk m c 13 t

/-! ## The index maps over the grid

Each window's block index at every one of the 256 points `t` of the grid: the batch tile is `t / 16`, the
output-feature tile `t / 4 % 4`, the contraction tile `t % 4`. -/

/-- The activations' window sits at block (batch tile, contraction tile). -/
theorem act_index : ∀ t : Fin cfg0.N, win0_0.index t (0 : Fin 2) = t.val / 16 ∧ win0_0.index t (1 : Fin 2) = t.val % 4 :=
  (by decide +kernel : ∀ t : Fin grid0.N, _)
/-- Weight window 1 sits at block (output-feature tile, contraction tile). -/
theorem weight1_index : ∀ t : Fin cfg0.N, win0_1.index t (0 : Fin 2) = t.val / 4 % 4 ∧ win0_1.index t (1 : Fin 2) = t.val % 4 :=
  (by decide +kernel : ∀ t : Fin grid0.N, _)
/-- Weight window 2 sits at block (output-feature tile, contraction tile). -/
theorem weight2_index : ∀ t : Fin cfg0.N, win0_2.index t (0 : Fin 2) = t.val / 4 % 4 ∧ win0_2.index t (1 : Fin 2) = t.val % 4 :=
  (by decide +kernel : ∀ t : Fin grid0.N, _)
/-- Weight window 3 sits at block (output-feature tile, contraction tile). -/
theorem weight3_index : ∀ t : Fin cfg0.N, win0_3.index t (0 : Fin 2) = t.val / 4 % 4 ∧ win0_3.index t (1 : Fin 2) = t.val % 4 :=
  (by decide +kernel : ∀ t : Fin grid0.N, _)
/-- Weight window 4 sits at block (output-feature tile, contraction tile). -/
theorem weight4_index : ∀ t : Fin cfg0.N, win0_4.index t (0 : Fin 2) = t.val / 4 % 4 ∧ win0_4.index t (1 : Fin 2) = t.val % 4 :=
  (by decide +kernel : ∀ t : Fin grid0.N, _)
/-- Weight window 5 sits at block (output-feature tile, contraction tile). -/
theorem weight5_index : ∀ t : Fin cfg0.N, win0_5.index t (0 : Fin 2) = t.val / 4 % 4 ∧ win0_5.index t (1 : Fin 2) = t.val % 4 :=
  (by decide +kernel : ∀ t : Fin grid0.N, _)
/-- Weight window 6 sits at block (output-feature tile, contraction tile). -/
theorem weight6_index : ∀ t : Fin cfg0.N, win0_6.index t (0 : Fin 2) = t.val / 4 % 4 ∧ win0_6.index t (1 : Fin 2) = t.val % 4 :=
  (by decide +kernel : ∀ t : Fin grid0.N, _)
/-- Bias window 1 sits at block (0, output-feature tile). -/
theorem bias1_index : ∀ t : Fin cfg0.N, win0_7.index t (0 : Fin 2) = 0 ∧ win0_7.index t (1 : Fin 2) = t.val / 4 % 4 :=
  (by decide +kernel : ∀ t : Fin grid0.N, _)
/-- Bias window 2 sits at block (0, output-feature tile). -/
theorem bias2_index : ∀ t : Fin cfg0.N, win0_8.index t (0 : Fin 2) = 0 ∧ win0_8.index t (1 : Fin 2) = t.val / 4 % 4 :=
  (by decide +kernel : ∀ t : Fin grid0.N, _)
/-- Bias window 3 sits at block (0, output-feature tile). -/
theorem bias3_index : ∀ t : Fin cfg0.N, win0_9.index t (0 : Fin 2) = 0 ∧ win0_9.index t (1 : Fin 2) = t.val / 4 % 4 :=
  (by decide +kernel : ∀ t : Fin grid0.N, _)
/-- Bias window 4 sits at block (0, output-feature tile). -/
theorem bias4_index : ∀ t : Fin cfg0.N, win0_10.index t (0 : Fin 2) = 0 ∧ win0_10.index t (1 : Fin 2) = t.val / 4 % 4 :=
  (by decide +kernel : ∀ t : Fin grid0.N, _)
/-- Bias window 5 sits at block (0, output-feature tile). -/
theorem bias5_index : ∀ t : Fin cfg0.N, win0_11.index t (0 : Fin 2) = 0 ∧ win0_11.index t (1 : Fin 2) = t.val / 4 % 4 :=
  (by decide +kernel : ∀ t : Fin grid0.N, _)
/-- Bias window 6 sits at block (0, output-feature tile). -/
theorem bias6_index : ∀ t : Fin cfg0.N, win0_12.index t (0 : Fin 2) = 0 ∧ win0_12.index t (1 : Fin 2) = t.val / 4 % 4 :=
  (by decide +kernel : ∀ t : Fin grid0.N, _)
/-- The hidden window sits at block (batch tile, output-feature tile). -/
theorem hidden_index : ∀ t : Fin cfg0.N, win0_13.index t (0 : Fin 2) = t.val / 16 ∧ win0_13.index t (1 : Fin 2) = t.val / 4 % 4 :=
  (by decide +kernel : ∀ t : Fin grid0.N, _)

/-! ## The arrays the host wrote, entry by entry

Before the call the host casts the activations and the six weights to a narrower float format, which over the
extended reals changes no entry, and lays each bias out as one row, which moves entry `H` to `(0, H)`. -/

/-- The cast activations are the first argument, entry by entry. -/
theorem castX_apply (c : Dev nD) (i : S8192x4096.Idx) : V m c main_v0 i = argX m c i := by
  have e : (V m c main_v0 : S8192x4096.Idx → EReal)
      = (truncf .bf16 (argX m c : FVec Ideal S8192x4096 .f32) bitsLt_bf16_f32 : FVec Ideal S8192x4096 .bf16) := by
    dsimp only [Gen.V, Gen.hostOps0]; after_results
  exact congrFun e i
/-- The cast weight 1 is that gate's weight argument, entry by entry. -/
theorem castW1_apply (c : Dev nD) (i : S4096x4096.Idx) : V m c main_v1 i = argW1 m c i := by
  have e : (V m c main_v1 : S4096x4096.Idx → EReal)
      = (truncf .bf16 (argW1 m c : FVec Ideal S4096x4096 .f32) bitsLt_bf16_f32 : FVec Ideal S4096x4096 .bf16) := by
    dsimp only [Gen.V, Gen.hostOps0]; after_results
  exact congrFun e i
/-- The cast weight 2 is that gate's weight argument, entry by entry. -/
theorem castW2_apply (c : Dev nD) (i : S4096x4096.Idx) : V m c main_v2 i = argW2 m c i := by
  have e : (V m c main_v2 : S4096x4096.Idx → EReal)
      = (truncf .bf16 (argW2 m c : FVec Ideal S4096x4096 .f32) bitsLt_bf16_f32 : FVec Ideal S4096x4096 .bf16) := by
    dsimp only [Gen.V, Gen.hostOps0]; after_results
  exact congrFun e i
/-- The cast weight 3 is that gate's weight argument, entry by entry. -/
theorem castW3_apply (c : Dev nD) (i : S4096x4096.Idx) : V m c main_v3 i = argW3 m c i := by
  have e : (V m c main_v3 : S4096x4096.Idx → EReal)
      = (truncf .bf16 (argW3 m c : FVec Ideal S4096x4096 .f32) bitsLt_bf16_f32 : FVec Ideal S4096x4096 .bf16) := by
    dsimp only [Gen.V, Gen.hostOps0]; after_results
  exact congrFun e i
/-- The cast weight 4 is that gate's weight argument, entry by entry. -/
theorem castW4_apply (c : Dev nD) (i : S4096x4096.Idx) : V m c main_v4 i = argW4 m c i := by
  have e : (V m c main_v4 : S4096x4096.Idx → EReal)
      = (truncf .bf16 (argW4 m c : FVec Ideal S4096x4096 .f32) bitsLt_bf16_f32 : FVec Ideal S4096x4096 .bf16) := by
    dsimp only [Gen.V, Gen.hostOps0]; after_results
  exact congrFun e i
/-- The cast weight 5 is that gate's weight argument, entry by entry. -/
theorem castW5_apply (c : Dev nD) (i : S4096x4096.Idx) : V m c main_v5 i = argW5 m c i := by
  have e : (V m c main_v5 : S4096x4096.Idx → EReal)
      = (truncf .bf16 (argW5 m c : FVec Ideal S4096x4096 .f32) bitsLt_bf16_f32 : FVec Ideal S4096x4096 .bf16) := by
    dsimp only [Gen.V, Gen.hostOps0]; after_results
  exact congrFun e i
/-- The cast weight 6 is that gate's weight argument, entry by entry. -/
theorem castW6_apply (c : Dev nD) (i : S4096x4096.Idx) : V m c main_v6 i = argW6 m c i := by
  have e : (V m c main_v6 : S4096x4096.Idx → EReal)
      = (truncf .bf16 (argW6 m c : FVec Ideal S4096x4096 .f32) bitsLt_bf16_f32 : FVec Ideal S4096x4096 .bf16) := by
    dsimp only [Gen.V, Gen.hostOps0]; after_results
  exact congrFun e i
/-- Bias 1 laid out as one row holds, at `(0, H)`, that gate's bias argument at `H`. -/
theorem rowB1_apply (c : Dev nD) (u : Fin 1) (H : Fin 4096) : V m c main_v7 (ix2 u H) = argB1 m c (ix1 H) := by
  have e : (V m c main_v7 : S1x4096.Idx → EReal) = shapeCast S1x4096 (argB1 m c) shapeCasts_S4096_S1x4096 := by
    dsimp only [Gen.V, Gen.hostOps0]; after_results; rfl
  rw [e]
  exact shapeCast_a_1a_apply _ _ u H
/-- Bias 2 laid out as one row holds, at `(0, H)`, that gate's bias argument at `H`. -/
theorem rowB2_apply (c : Dev nD) (u : Fin 1) (H : Fin 4096) : V m c main_v8 (ix2 u H) = argB2 m c (ix1 H) := by
  have e : (V m c main_v8 : S1x4096.Idx → EReal) = shapeCast S1x4096 (argB2 m c) shapeCasts_S4096_S1x4096 := by
    dsimp only [Gen.V, Gen.hostOps0]; after_results; rfl
  rw [e]
  exact shapeCast_a_1a_apply _ _ u H
/-- Bias 3 laid out as one row holds, at `(0, H)`, that gate's bias argument at `H`. -/
theorem rowB3_apply (c : Dev nD) (u : Fin 1) (H : Fin 4096) : V m c main_v9 (ix2 u H) = argB3 m c (ix1 H) := by
  have e : (V m c main_v9 : S1x4096.Idx → EReal) = shapeCast S1x4096 (argB3 m c) shapeCasts_S4096_S1x4096 := by
    dsimp only [Gen.V, Gen.hostOps0]; after_results; rfl
  rw [e]
  exact shapeCast_a_1a_apply _ _ u H
/-- Bias 4 laid out as one row holds, at `(0, H)`, that gate's bias argument at `H`. -/
theorem rowB4_apply (c : Dev nD) (u : Fin 1) (H : Fin 4096) : V m c main_v10 (ix2 u H) = argB4 m c (ix1 H) := by
  have e : (V m c main_v10 : S1x4096.Idx → EReal) = shapeCast S1x4096 (argB4 m c) shapeCasts_S4096_S1x4096 := by
    dsimp only [Gen.V, Gen.hostOps0]; after_results; rfl
  rw [e]
  exact shapeCast_a_1a_apply _ _ u H
/-- Bias 5 laid out as one row holds, at `(0, H)`, that gate's bias argument at `H`. -/
theorem rowB5_apply (c : Dev nD) (u : Fin 1) (H : Fin 4096) : V m c main_v11 (ix2 u H) = argB5 m c (ix1 H) := by
  have e : (V m c main_v11 : S1x4096.Idx → EReal) = shapeCast S1x4096 (argB5 m c) shapeCasts_S4096_S1x4096 := by
    dsimp only [Gen.V, Gen.hostOps0]; after_results; rfl
  rw [e]
  exact shapeCast_a_1a_apply _ _ u H
/-- Bias 6 laid out as one row holds, at `(0, H)`, that gate's bias argument at `H`. -/
theorem rowB6_apply (c : Dev nD) (u : Fin 1) (H : Fin 4096) : V m c main_v12 (ix2 u H) = argB6 m c (ix1 H) := by
  have e : (V m c main_v12 : S1x4096.Idx → EReal) = shapeCast S1x4096 (argB6 m c) shapeCasts_S4096_S1x4096 := by
    dsimp only [Gen.V, Gen.hostOps0]; after_results; rfl
  rw [e]
  exact shapeCast_a_1a_apply _ _ u H

/-! ## The blocks

A block's coordinate on an axis is its block index times the block's extent plus the coordinate inside the block. -/

/-- The activations' block: row `512·(t/16) + p`, feature `1024·(t%4) + e` of the first argument. -/
theorem xblk_apply (c : Dev nD) (t : Fin cfg0.N) (p : Fin 512) (e : Fin 1024) (R : Fin 8192) (D : Fin 4096)
    (hR : R.val = 512 * (t.val / 16) + p.val) (hD : D.val = 1024 * (t.val % 4) + e.val) :
    xblk m c t (ix2 p e) = argX m c (ix2 R D) := by
  obtain ⟨e0, e1⟩ := act_index t
  show V m c main_v0 (((cfg0.win 0).blk t).view.emb (ix2 p e)) = argX m c (ix2 R D)
  rw [castX_apply]
  congr 1
  funext a
  apply Fin.ext
  match a with
  | ⟨0, _⟩ => show win0_0.index t (0 : Fin 2) * 512 + 1 * p.val = R.val; omega
  | ⟨1, _⟩ => show win0_0.index t (1 : Fin 2) * 1024 + 1 * e.val = D.val; omega

/-- Weight window 1's block: row `1024·(t/4%4) + q`, feature `1024·(t%4) + e` of that gate's weight. -/
theorem wblk1_apply (c : Dev nD) (t : Fin cfg0.N) (q : Fin 1024) (e : Fin 1024) (H : Fin 4096) (D : Fin 4096)
    (hH : H.val = 1024 * (t.val / 4 % 4) + q.val) (hD : D.val = 1024 * (t.val % 4) + e.val) :
    wblk1 m c t (ix2 q e) = argW1 m c (ix2 H D) := by
  obtain ⟨e0, e1⟩ := weight1_index t
  show V m c main_v1 (((cfg0.win 1).blk t).view.emb (ix2 q e)) = argW1 m c (ix2 H D)
  rw [castW1_apply]
  congr 1
  funext a
  apply Fin.ext
  match a with
  | ⟨0, _⟩ => show win0_1.index t (0 : Fin 2) * 1024 + 1 * q.val = H.val; omega
  | ⟨1, _⟩ => show win0_1.index t (1 : Fin 2) * 1024 + 1 * e.val = D.val; omega

/-- Weight window 2's block: row `1024·(t/4%4) + q`, feature `1024·(t%4) + e` of that gate's weight. -/
theorem wblk2_apply (c : Dev nD) (t : Fin cfg0.N) (q : Fin 1024) (e : Fin 1024) (H : Fin 4096) (D : Fin 4096)
    (hH : H.val = 1024 * (t.val / 4 % 4) + q.val) (hD : D.val = 1024 * (t.val % 4) + e.val) :
    wblk2 m c t (ix2 q e) = argW2 m c (ix2 H D) := by
  obtain ⟨e0, e1⟩ := weight2_index t
  show V m c main_v2 (((cfg0.win 2).blk t).view.emb (ix2 q e)) = argW2 m c (ix2 H D)
  rw [castW2_apply]
  congr 1
  funext a
  apply Fin.ext
  match a with
  | ⟨0, _⟩ => show win0_2.index t (0 : Fin 2) * 1024 + 1 * q.val = H.val; omega
  | ⟨1, _⟩ => show win0_2.index t (1 : Fin 2) * 1024 + 1 * e.val = D.val; omega

/-- Weight window 3's block: row `1024·(t/4%4) + q`, feature `1024·(t%4) + e` of that gate's weight. -/
theorem wblk3_apply (c : Dev nD) (t : Fin cfg0.N) (q : Fin 1024) (e : Fin 1024) (H : Fin 4096) (D : Fin 4096)
    (hH : H.val = 1024 * (t.val / 4 % 4) + q.val) (hD : D.val = 1024 * (t.val % 4) + e.val) :
    wblk3 m c t (ix2 q e) = argW3 m c (ix2 H D) := by
  obtain ⟨e0, e1⟩ := weight3_index t
  show V m c main_v3 (((cfg0.win 3).blk t).view.emb (ix2 q e)) = argW3 m c (ix2 H D)
  rw [castW3_apply]
  congr 1
  funext a
  apply Fin.ext
  match a with
  | ⟨0, _⟩ => show win0_3.index t (0 : Fin 2) * 1024 + 1 * q.val = H.val; omega
  | ⟨1, _⟩ => show win0_3.index t (1 : Fin 2) * 1024 + 1 * e.val = D.val; omega

/-- Weight window 4's block: row `1024·(t/4%4) + q`, feature `1024·(t%4) + e` of that gate's weight. -/
theorem wblk4_apply (c : Dev nD) (t : Fin cfg0.N) (q : Fin 1024) (e : Fin 1024) (H : Fin 4096) (D : Fin 4096)
    (hH : H.val = 1024 * (t.val / 4 % 4) + q.val) (hD : D.val = 1024 * (t.val % 4) + e.val) :
    wblk4 m c t (ix2 q e) = argW4 m c (ix2 H D) := by
  obtain ⟨e0, e1⟩ := weight4_index t
  show V m c main_v4 (((cfg0.win 4).blk t).view.emb (ix2 q e)) = argW4 m c (ix2 H D)
  rw [castW4_apply]
  congr 1
  funext a
  apply Fin.ext
  match a with
  | ⟨0, _⟩ => show win0_4.index t (0 : Fin 2) * 1024 + 1 * q.val = H.val; omega
  | ⟨1, _⟩ => show win0_4.index t (1 : Fin 2) * 1024 + 1 * e.val = D.val; omega

/-- Weight window 5's block: row `1024·(t/4%4) + q`, feature `1024·(t%4) + e` of that gate's weight. -/
theorem wblk5_apply (c : Dev nD) (t : Fin cfg0.N) (q : Fin 1024) (e : Fin 1024) (H : Fin 4096) (D : Fin 4096)
    (hH : H.val = 1024 * (t.val / 4 % 4) + q.val) (hD : D.val = 1024 * (t.val % 4) + e.val) :
    wblk5 m c t (ix2 q e) = argW5 m c (ix2 H D) := by
  obtain ⟨e0, e1⟩ := weight5_index t
  show V m c main_v5 (((cfg0.win 5).blk t).view.emb (ix2 q e)) = argW5 m c (ix2 H D)
  rw [castW5_apply]
  congr 1
  funext a
  apply Fin.ext
  match a with
  | ⟨0, _⟩ => show win0_5.index t (0 : Fin 2) * 1024 + 1 * q.val = H.val; omega
  | ⟨1, _⟩ => show win0_5.index t (1 : Fin 2) * 1024 + 1 * e.val = D.val; omega

/-- Weight window 6's block: row `1024·(t/4%4) + q`, feature `1024·(t%4) + e` of that gate's weight. -/
theorem wblk6_apply (c : Dev nD) (t : Fin cfg0.N) (q : Fin 1024) (e : Fin 1024) (H : Fin 4096) (D : Fin 4096)
    (hH : H.val = 1024 * (t.val / 4 % 4) + q.val) (hD : D.val = 1024 * (t.val % 4) + e.val) :
    wblk6 m c t (ix2 q e) = argW6 m c (ix2 H D) := by
  obtain ⟨e0, e1⟩ := weight6_index t
  show V m c main_v6 (((cfg0.win 6).blk t).view.emb (ix2 q e)) = argW6 m c (ix2 H D)
  rw [castW6_apply]
  congr 1
  funext a
  apply Fin.ext
  match a with
  | ⟨0, _⟩ => show win0_6.index t (0 : Fin 2) * 1024 + 1 * q.val = H.val; omega
  | ⟨1, _⟩ => show win0_6.index t (1 : Fin 2) * 1024 + 1 * e.val = D.val; omega

/-- Bias window 1's block: entry `1024·(t/4%4) + q` of that gate's bias. -/
theorem bblk1_apply (c : Dev nD) (t : Fin cfg0.N) (q : Fin 1024) (H : Fin 4096)
    (hH : H.val = 1024 * (t.val / 4 % 4) + q.val) :
    bblk1 m c t (ix2 (0 : Fin 1) q) = argB1 m c (ix1 H) := by
  obtain ⟨e0, e1⟩ := bias1_index t
  show V m c main_v7 (((cfg0.win 7).blk t).view.emb (ix2 (0 : Fin 1) q)) = argB1 m c (ix1 H)
  rw [← rowB1_apply m c (0 : Fin 1) H]
  congr 1
  funext a
  apply Fin.ext
  match a with
  | ⟨0, _⟩ => show win0_7.index t (0 : Fin 2) * 1 + 1 * (0 : Fin 1).val = (0 : Fin 1).val; omega
  | ⟨1, _⟩ => show win0_7.index t (1 : Fin 2) * 1024 + 1 * q.val = H.val; omega

/-- Bias window 2's block: entry `1024·(t/4%4) + q` of that gate's bias. -/
theorem bblk2_apply (c : Dev nD) (t : Fin cfg0.N) (q : Fin 1024) (H : Fin 4096)
    (hH : H.val = 1024 * (t.val / 4 % 4) + q.val) :
    bblk2 m c t (ix2 (0 : Fin 1) q) = argB2 m c (ix1 H) := by
  obtain ⟨e0, e1⟩ := bias2_index t
  show V m c main_v8 (((cfg0.win 8).blk t).view.emb (ix2 (0 : Fin 1) q)) = argB2 m c (ix1 H)
  rw [← rowB2_apply m c (0 : Fin 1) H]
  congr 1
  funext a
  apply Fin.ext
  match a with
  | ⟨0, _⟩ => show win0_8.index t (0 : Fin 2) * 1 + 1 * (0 : Fin 1).val = (0 : Fin 1).val; omega
  | ⟨1, _⟩ => show win0_8.index t (1 : Fin 2) * 1024 + 1 * q.val = H.val; omega

/-- Bias window 3's block: entry `1024·(t/4%4) + q` of that gate's bias. -/
theorem bblk3_apply (c : Dev nD) (t : Fin cfg0.N) (q : Fin 1024) (H : Fin 4096)
    (hH : H.val = 1024 * (t.val / 4 % 4) + q.val) :
    bblk3 m c t (ix2 (0 : Fin 1) q) = argB3 m c (ix1 H) := by
  obtain ⟨e0, e1⟩ := bias3_index t
  show V m c main_v9 (((cfg0.win 9).blk t).view.emb (ix2 (0 : Fin 1) q)) = argB3 m c (ix1 H)
  rw [← rowB3_apply m c (0 : Fin 1) H]
  congr 1
  funext a
  apply Fin.ext
  match a with
  | ⟨0, _⟩ => show win0_9.index t (0 : Fin 2) * 1 + 1 * (0 : Fin 1).val = (0 : Fin 1).val; omega
  | ⟨1, _⟩ => show win0_9.index t (1 : Fin 2) * 1024 + 1 * q.val = H.val; omega

/-- Bias window 4's block: entry `1024·(t/4%4) + q` of that gate's bias. -/
theorem bblk4_apply (c : Dev nD) (t : Fin cfg0.N) (q : Fin 1024) (H : Fin 4096)
    (hH : H.val = 1024 * (t.val / 4 % 4) + q.val) :
    bblk4 m c t (ix2 (0 : Fin 1) q) = argB4 m c (ix1 H) := by
  obtain ⟨e0, e1⟩ := bias4_index t
  show V m c main_v10 (((cfg0.win 10).blk t).view.emb (ix2 (0 : Fin 1) q)) = argB4 m c (ix1 H)
  rw [← rowB4_apply m c (0 : Fin 1) H]
  congr 1
  funext a
  apply Fin.ext
  match a with
  | ⟨0, _⟩ => show win0_10.index t (0 : Fin 2) * 1 + 1 * (0 : Fin 1).val = (0 : Fin 1).val; omega
  | ⟨1, _⟩ => show win0_10.index t (1 : Fin 2) * 1024 + 1 * q.val = H.val; omega

/-- Bias window 5's block: entry `1024·(t/4%4) + q` of that gate's bias. -/
theorem bblk5_apply (c : Dev nD) (t : Fin cfg0.N) (q : Fin 1024) (H : Fin 4096)
    (hH : H.val = 1024 * (t.val / 4 % 4) + q.val) :
    bblk5 m c t (ix2 (0 : Fin 1) q) = argB5 m c (ix1 H) := by
  obtain ⟨e0, e1⟩ := bias5_index t
  show V m c main_v11 (((cfg0.win 11).blk t).view.emb (ix2 (0 : Fin 1) q)) = argB5 m c (ix1 H)
  rw [← rowB5_apply m c (0 : Fin 1) H]
  congr 1
  funext a
  apply Fin.ext
  match a with
  | ⟨0, _⟩ => show win0_11.index t (0 : Fin 2) * 1 + 1 * (0 : Fin 1).val = (0 : Fin 1).val; omega
  | ⟨1, _⟩ => show win0_11.index t (1 : Fin 2) * 1024 + 1 * q.val = H.val; omega

/-- Bias window 6's block: entry `1024·(t/4%4) + q` of that gate's bias. -/
theorem bblk6_apply (c : Dev nD) (t : Fin cfg0.N) (q : Fin 1024) (H : Fin 4096)
    (hH : H.val = 1024 * (t.val / 4 % 4) + q.val) :
    bblk6 m c t (ix2 (0 : Fin 1) q) = argB6 m c (ix1 H) := by
  obtain ⟨e0, e1⟩ := bias6_index t
  show V m c main_v12 (((cfg0.win 12).blk t).view.emb (ix2 (0 : Fin 1) q)) = argB6 m c (ix1 H)
  rw [← rowB6_apply m c (0 : Fin 1) H]
  congr 1
  funext a
  apply Fin.ext
  match a with
  | ⟨0, _⟩ => show win0_12.index t (0 : Fin 2) * 1 + 1 * (0 : Fin 1).val = (0 : Fin 1).val; omega
  | ⟨1, _⟩ => show win0_12.index t (1 : Fin 2) * 1024 + 1 * q.val = H.val; omega

/-- The hidden window's block: row `512·(t/16) + p`, column `1024·(t/4%4) + q` of the second argument. -/
theorem hblk_apply (c : Dev nD) (t : Fin cfg0.N) (p : Fin 512) (q : Fin 1024) (R : Fin 8192) (H : Fin 4096)
    (hR : R.val = 512 * (t.val / 16) + p.val) (hH : H.val = 1024 * (t.val / 4 % 4) + q.val) :
    hblk m c t (ix2 p q) = argHid m c (ix2 R H) := by
  obtain ⟨e0, e1⟩ := hidden_index t
  show V m c main_arg1 (((cfg0.win 13).blk t).view.emb (ix2 p q)) = argHid m c (ix2 R H)
  rw [V_main_arg1]
  congr 1
  funext a
  apply Fin.ext
  match a with
  | ⟨0, _⟩ => show win0_13.index t (0 : Fin 2) * 512 + 1 * p.val = R.val; omega
  | ⟨1, _⟩ => show win0_13.index t (1 : Fin 2) * 1024 + 1 * q.val = H.val; omega

end Cert.Gru.Blocks

end
-- ==== Proof.Accumulate.lean ====
/-
  The scratch after a run of four points is the whole contraction.

  The scratch is reset at the first point of each run of four (points 4u, 4u+1, 4u+2, 4u+3 share the batch tile and the
  output-feature tile and walk the four contraction tiles) and every point adds, to slab `g` at (p, q), the partial
  dot product of its activation block's row p with its weight block's row q. So after point `4u + j` the slab holds
  `0 + Σ_{s ≤ j}` of those addends, and after the run's last point, reading each block through to the argument
  arrays, the sum of the four runs of 1024 consecutive features, which is the dot product over all 4096 features.
-/
import proofs.«134069_j83116207112676_1_alg».proof.Proof.Gen.KernelIdeal.Value
import proofs.«134069_j83116207112676_1_alg».proof.Proof.GruSpec
import proofs.«134069_j83116207112676_1_alg».proof.Proof.BodyValue
import proofs.«134069_j83116207112676_1_alg».proof.Proof.BlockReads
import Idealize.ShloMosaic.Lib.Pipeline.Value
import Idealize.ShloMosaic.Lib.ValueIdx

set_option maxRecDepth 16384

noncomputable section

namespace Cert.Gru.Acc

open Cert.KernelIdeal Cert.KernelIdeal.Gen Cert.KernelIdeal.Value Idealize.ShloMosaic Idealize.ShloMosaic.TcCoe
open Idealize.ShloMosaic.ValueIdx Cert.Gru.Body Cert.Gru.Blocks
open scoped BigOperators

variable (m : (ℓ : Loc nD τ sig) → Buf (Elt Ideal) ℓ)

theorem N_eq : cfg0.N = 256 := N_0

/-- Gate `g`'s weight argument (gates in the order ir, iz, in, hr, hz, hn). -/
def warg (c : Dev nD) : Fin 6 → Vec Ideal S4096x4096 .f32
  | 0 => argW1 m c | 1 => argW2 m c | 2 => argW3 m c | 3 => argW4 m c | 4 => argW5 m c | 5 => argW6 m c

/-- What point `n` adds to slab `g` at (p, q): the partial dot product of its blocks (nothing past the grid). -/
def addend (c : Dev nD) (n : ℕ) (g : Fin 6) (p : Fin 512) (q : Fin 1024) : EReal :=
  if h : n < cfg0.N then
    dot (xblk m c ⟨n, h⟩) (wsel (wblk1 m c ⟨n, h⟩) (wblk2 m c ⟨n, h⟩) (wblk3 m c ⟨n, h⟩) (wblk4 m c ⟨n, h⟩)
      (wblk5 m c ⟨n, h⟩) (wblk6 m c ⟨n, h⟩) g) p q
  else 0

/-- The same as a function of the scratch's index. -/
def addendAt (c : Dev nD) (n : ℕ) (i : S6x512x1024.Idx) : EReal := addend m c n (i 0) (i 1) (i 2)

/-- At the first point of a run the scratch is `0 +` that point's addend. -/
theorem step_reset (c : Dev nD) (b : ℕ) (hb : b < cfg0.N) (h0 : b % 4 = 0) (i : S6x512x1024.Idx) :
    scAt0_0 m c b hb (VS0_0.read (Elt Ideal) VS0_0.junk) i = 0 + addendAt m c b i := by
  obtain ⟨g, p, q, rfl⟩ : ∃ (g : Fin 6) (p : Fin 512) (q : Fin 1024), i = ix3 g p q := ⟨i 0, i 1, i 2, eq_ix3 i⟩
  have h1 : ¬b % 4 = 3 := by omega
  unfold scAt0_0
  rw [dif_pos h0, dif_neg h1]
  refine (scratch_A c (grid0.coords ⟨b, hb⟩) (ms0_0 ⟨b, hb⟩) (hs0_0 ⟨b, hb⟩) (ms0_1 ⟨b, hb⟩) (hs0_1 ⟨b, hb⟩) (ms0_2 ⟨b, hb⟩) (hs0_2 ⟨b, hb⟩) (ms0_3 ⟨b, hb⟩) (hs0_3 ⟨b, hb⟩) (ms0_4 ⟨b, hb⟩) (hs0_4 ⟨b, hb⟩) (ms0_5 ⟨b, hb⟩) (hs0_5 ⟨b, hb⟩) (ms0_6 ⟨b, hb⟩) (hs0_6 ⟨b, hb⟩) (ms0_7 ⟨b, hb⟩) (hs0_7 ⟨b, hb⟩) (ms0_8 ⟨b, hb⟩) (hs0_8 ⟨b, hb⟩) (ms0_9 ⟨b, hb⟩) (hs0_9 ⟨b, hb⟩) (ms0_10 ⟨b, hb⟩) (hs0_10 ⟨b, hb⟩) (ms0_11 ⟨b, hb⟩) (hs0_11 ⟨b, hb⟩) (ms0_12 ⟨b, hb⟩) (hs0_12 ⟨b, hb⟩) (ms0_13 ⟨b, hb⟩) (hs0_13 ⟨b, hb⟩) (ms0_14 ⟨b, hb⟩) (hs0_14 ⟨b, hb⟩) scM0_0 (Memref.isWhole_whole _) (iblk m c 0 ⟨b, hb⟩) (iblk m c 1 ⟨b, hb⟩) (iblk m c 2 ⟨b, hb⟩) (iblk m c 3 ⟨b, hb⟩) (iblk m c 4 ⟨b, hb⟩) (iblk m c 5 ⟨b, hb⟩) (iblk m c 6 ⟨b, hb⟩) (iblk m c 7 ⟨b, hb⟩) (iblk m c 8 ⟨b, hb⟩) (iblk m c 9 ⟨b, hb⟩) (iblk m c 10 ⟨b, hb⟩) (iblk m c 11 ⟨b, hb⟩) (iblk m c 12 ⟨b, hb⟩) (iblk m c 13 ⟨b, hb⟩) _ _ g p q).trans ?_
  show _ = 0 + addend m c b g p q
  unfold addend
  rw [dif_pos hb]

/-- At every other point of the run the scratch is what the point before left plus that point's addend. -/
theorem step_add (c : Dev nD) (n : ℕ) (hn : n < cfg0.N) (h0 : ¬n % 4 = 0) (acc : Vec Ideal S6x512x1024 .f32)
    (i : S6x512x1024.Idx) :
    scAt0_0 m c n hn acc i = acc i + addendAt m c n i := by
  obtain ⟨g, p, q, rfl⟩ : ∃ (g : Fin 6) (p : Fin 512) (q : Fin 1024), i = ix3 g p q := ⟨i 0, i 1, i 2, eq_ix3 i⟩
  unfold scAt0_0
  rw [dif_neg h0]
  by_cases h1 : n % 4 = 3
  · rw [dif_pos h1]
    refine (scratch_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) (ms0_13 ⟨n, hn⟩) (hs0_13 ⟨n, hn⟩) (ms0_14 ⟨n, hn⟩) (hs0_14 ⟨n, hn⟩) scM0_0 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) (iblk m c 12 ⟨n, hn⟩) (iblk m c 13 ⟨n, hn⟩) _ _ acc g p q).trans ?_
    show _ = acc (ix3 g p q) + addend m c n g p q
    unfold addend
    rw [dif_pos hn]
  · rw [dif_neg h1]
    refine (scratch_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) (ms0_13 ⟨n, hn⟩) (hs0_13 ⟨n, hn⟩) (ms0_14 ⟨n, hn⟩) (hs0_14 ⟨n, hn⟩) scM0_0 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) (iblk m c 12 ⟨n, hn⟩) (iblk m c 13 ⟨n, hn⟩) _ _ acc g p q).trans ?_
    show _ = acc (ix3 g p q) + addend m c n g p q
    unfold addend
    rw [dif_pos hn]

/-- The scratch after point `t`: zero plus the addends of the run's points up to `t`. -/
theorem scratch_fold (c : Dev nD) (t : Fin cfg0.N) (i : S6x512x1024.Idx) :
    (outsAt0 m c t.val t.isLt).2 i
      = 0 + ∑ s ∈ Finset.range (t.val % 4 + 1), addendAt m c (4 * (t.val / 4) + s) i := by
  rw [soutsAt0_0_eq m c t]
  exact Pipeline.accAt_add_apply (fun n h => scAt0_0 m c n h (VS0_0.read (Elt Ideal) VS0_0.junk)) (scAt0_0 m c)
    (fun _ => (0 : EReal)) (addendAt m c) (4 * (t.val / 4)) 3
    (fun h i => step_reset m c _ h (by omega) i)
    (fun n h acc i hlt hle => step_add m c n h (by omega) acc i)
    (t.val % 4) (by omega) _ i

/-- Row `R` of the activations and row `H` of gate `g`'s weight as functions of the feature number (zero past 4096). -/
def rowX (c : Dev nD) (R : Fin 8192) (d : ℕ) : EReal := if h : d < 4096 then argX m c (ix2 R ⟨d, h⟩) else 0
def rowW (c : Dev nD) (g : Fin 6) (H : Fin 4096) (d : ℕ) : EReal := if h : d < 4096 then warg m c g (ix2 H ⟨d, h⟩) else 0

/-- The addend of the run's point number `s`, read through its blocks: features `1024·s … 1024·s + 1023` of row
    `R = 512·(t/16) + p` of the activations against row `H = 1024·(t/4%4) + q` of gate `g`'s weight. -/
theorem addend_run (c : Dev nD) (t : Fin cfg0.N) (s : ℕ) (hs : s < 4) (g : Fin 6) (p : Fin 512) (q : Fin 1024)
    (R : Fin 8192) (H : Fin 4096) (hR : R.val = 512 * (t.val / 16) + p.val)
    (hH : H.val = 1024 * (t.val / 4 % 4) + q.val) :
    addend m c (4 * (t.val / 4) + s) g p q
      = ∑ e : Fin 1024, rowX m c R (1024 * s + e.val) * rowW m c g H (1024 * s + e.val) := by
  have hN := N_eq
  have ht := t.isLt
  have hn : 4 * (t.val / 4) + s < cfg0.N := by omega
  unfold addend
  rw [dif_pos hn]
  unfold dot
  refine Finset.sum_congr rfl fun e _ => ?_
  have he := e.isLt
  have hd : 1024 * s + e.val < 4096 := by omega
  unfold rowX rowW
  rw [dif_pos hd, dif_pos hd]
  have hx := xblk_apply m c ⟨4 * (t.val / 4) + s, hn⟩ p e R ⟨1024 * s + e.val, hd⟩
    (by show R.val = 512 * ((4 * (t.val / 4) + s) / 16) + p.val; omega)
    (by show 1024 * s + e.val = 1024 * ((4 * (t.val / 4) + s) % 4) + e.val; omega)
  have hw : wsel (wblk1 m c ⟨4 * (t.val / 4) + s, hn⟩) (wblk2 m c ⟨4 * (t.val / 4) + s, hn⟩)
      (wblk3 m c ⟨4 * (t.val / 4) + s, hn⟩) (wblk4 m c ⟨4 * (t.val / 4) + s, hn⟩)
      (wblk5 m c ⟨4 * (t.val / 4) + s, hn⟩) (wblk6 m c ⟨4 * (t.val / 4) + s, hn⟩) g (ix2 q e)
      = warg m c g (ix2 H ⟨1024 * s + e.val, hd⟩) := by
    match g with
    | 0 =>
      exact wblk1_apply m c ⟨4 * (t.val / 4) + s, hn⟩ q e H ⟨1024 * s + e.val, hd⟩
        (by show H.val = 1024 * ((4 * (t.val / 4) + s) / 4 % 4) + q.val; omega)
        (by show 1024 * s + e.val = 1024 * ((4 * (t.val / 4) + s) % 4) + e.val; omega)
    | 1 =>
      exact wblk2_apply m c ⟨4 * (t.val / 4) + s, hn⟩ q e H ⟨1024 * s + e.val, hd⟩
        (by show H.val = 1024 * ((4 * (t.val / 4) + s) / 4 % 4) + q.val; omega)
        (by show 1024 * s + e.val = 1024 * ((4 * (t.val / 4) + s) % 4) + e.val; omega)
    | 2 =>
      exact wblk3_apply m c ⟨4 * (t.val / 4) + s, hn⟩ q e H ⟨1024 * s + e.val, hd⟩
        (by show H.val = 1024 * ((4 * (t.val / 4) + s) / 4 % 4) + q.val; omega)
        (by show 1024 * s + e.val = 1024 * ((4 * (t.val / 4) + s) % 4) + e.val; omega)
    | 3 =>
      exact wblk4_apply m c ⟨4 * (t.val / 4) + s, hn⟩ q e H ⟨1024 * s + e.val, hd⟩
        (by show H.val = 1024 * ((4 * (t.val / 4) + s) / 4 % 4) + q.val; omega)
        (by show 1024 * s + e.val = 1024 * ((4 * (t.val / 4) + s) % 4) + e.val; omega)
    | 4 =>
      exact wblk5_apply m c ⟨4 * (t.val / 4) + s, hn⟩ q e H ⟨1024 * s + e.val, hd⟩
        (by show H.val = 1024 * ((4 * (t.val / 4) + s) / 4 % 4) + q.val; omega)
        (by show 1024 * s + e.val = 1024 * ((4 * (t.val / 4) + s) % 4) + e.val; omega)
    | 5 =>
      exact wblk6_apply m c ⟨4 * (t.val / 4) + s, hn⟩ q e H ⟨1024 * s + e.val, hd⟩
        (by show H.val = 1024 * ((4 * (t.val / 4) + s) / 4 % 4) + q.val; omega)
        (by show 1024 * s + e.val = 1024 * ((4 * (t.val / 4) + s) % 4) + e.val; omega)
  rw [hx, hw]

/-- After the last point of a run, slab `g` at (p, q) holds the whole dot product of the two rows. -/
theorem slab_total (c : Dev nD) (t : Fin cfg0.N) (h3 : t.val % 4 = 3) (g : Fin 6) (p : Fin 512) (q : Fin 1024)
    (R : Fin 8192) (H : Fin 4096) (hR : R.val = 512 * (t.val / 16) + p.val)
    (hH : H.val = 1024 * (t.val / 4 % 4) + q.val) :
    (outsAt0 m c t.val t.isLt).2 (ix3 g p q) = 0 + Cert.Gru.proj (argX m c) (warg m c g) R H := by
  rw [scratch_fold m c t, h3]
  refine congrArg (fun z : EReal => 0 + z) ?_
  rw [Cert.Gru.proj_runs (argX m c) (warg m c g) R H (rowX m c R) (rowW m c g H)
    (fun d => by unfold rowX; rw [dif_pos d.isLt]) (fun d => by unfold rowW; rw [dif_pos d.isLt])]
  refine Finset.sum_congr rfl fun s hs => ?_
  exact addend_run m c t s (Finset.mem_range.mp hs) g p q R H hR hH

/-- The same, said of what the point BEFORE the run's last left plus the last point's addend: the six slab values
    the last point's output block is computed from. -/
theorem slab_closed (c : Dev nD) (t : Fin cfg0.N) (h3 : t.val % 4 = 3) (g : Fin 6) (p : Fin 512) (q : Fin 1024)
    (R : Fin 8192) (H : Fin 4096) (hR : R.val = 512 * (t.val / 16) + p.val)
    (hH : H.val = 1024 * (t.val / 4 % 4) + q.val) :
    (outsAt0 m c (t.val - 1) (Nat.lt_of_le_of_lt (Nat.sub_le _ _) t.isLt)).2 (ix3 g p q)
        + dot (xblk m c t) (wsel (wblk1 m c t) (wblk2 m c t) (wblk3 m c t) (wblk4 m c t) (wblk5 m c t) (wblk6 m c t) g) p q
      = 0 + Cert.Gru.proj (argX m c) (warg m c g) R H := by
  have h0 : ¬t.val % 4 = 0 := by omega
  rw [← slab_total m c t h3 g p q R H hR hH, outsAt0_C m c t h0 h3]
  dsimp only
  exact (scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ g p q).symm

end Cert.Gru.Acc

end
-- ==== Proof.KernelValue.lean ====
/-
  The idealized kernel's result array is the cell of its arguments.

  The output window writes its 512 × 1024 block back only at the last point of each run of four; the block of point
  `t` sits at rows `512·(t/16) …` and columns `1024·(t/4%4) …` of the result. There the body has the six slabs
  holding the complete dot products of row `R` of the activations with row `H` of each gate's weight, adds the
  biases' entries `H`, and combines them with the hidden entry at (R, H): exactly `Cert.Gru.cell` at (R, H). The 16 × 4
  flushing points' blocks tile the 8192 × 4096 array (the point covering (r, h) is `((r/512)·4 + h/1024)·4 + 3`), so the
  array ends holding the cell everywhere.
-/
import proofs.«134069_j83116207112676_1_alg».proof.Proof.Gen.KernelIdeal.Value
import proofs.«134069_j83116207112676_1_alg».proof.Proof.GruSpec
import proofs.«134069_j83116207112676_1_alg».proof.Proof.BodyValue
import proofs.«134069_j83116207112676_1_alg».proof.Proof.BlockReads
import proofs.«134069_j83116207112676_1_alg».proof.Proof.Accumulate
import Idealize.ShloMosaic.Lib.Pipeline.Value
import Idealize.ShloMosaic.Lib.ValueIdx

set_option maxRecDepth 16384

noncomputable section

namespace Cert.Gru.Kernel

open Cert.KernelIdeal Cert.KernelIdeal.Gen Cert.KernelIdeal.Value Idealize.ShloMosaic Idealize.ShloMosaic.TcCoe
open Idealize.SL.Sem
open Idealize.ShloMosaic.Pipeline (Dat)
open Idealize.ShloMosaic.ValueIdx Cert.Gru.Body Cert.Gru.Blocks Cert.Gru.Acc

variable (m : (ℓ : Loc nD τ sig) → Buf (Elt Ideal) ℓ) (ρ : Dev nD → PrngReg)

/-- What the result array ends holding: the cell of the fourteen arguments. -/
abbrev result (c : Dev nD) : Vec Ideal S8192x4096 .f32 :=
  Cert.Gru.cell (argX m c) (argHid m c) (argW1 m c) (argB1 m c) (argW2 m c) (argB2 m c) (argW3 m c) (argB3 m c)
    (argW4 m c) (argB4 m c) (argW5 m c) (argB5 m c) (argW6 m c) (argB6 m c)

/-- The output window's block index at point `t`: (batch tile, output-feature tile), decided over the grid. -/
theorem out_idx : ∀ t : Fin cfg0.N, win0_14.index t (0 : Fin 2) = t.val / 16 ∧ win0_14.index t (1 : Fin 2) = t.val / 4 % 4 :=
  (by decide +kernel : ∀ t : Fin grid0.N, _)

/-- Equal gate values and hidden entries give equal combinations. -/
theorem combine_congr {a0 a1 a2 a3 a4 a5 h b0 b1 b2 b3 b4 b5 k : EReal} (e0 : a0 = b0) (e1 : a1 = b1) (e2 : a2 = b2)
    (e3 : a3 = b3) (e4 : a4 = b4) (e5 : a5 = b5) (eh : h = k) :
    Cert.Gru.combine a0 a1 a2 a3 a4 a5 h = Cert.Gru.combine b0 b1 b2 b3 b4 b5 k := by
  subst e0 e1 e2 e3 e4 e5 eh; rfl

/-- WHAT A FLUSHING POINT WRITES BACK is its block of the cell. -/
theorem flushed_eq (c : Dev nD) (t : Fin cfg0.N) (hf : (cfg0.win 14).flush t = true) :
    (dats m 0 c).flushed 14 t = ((cfg0.win 14).blk t).view.read (Elt Ideal) (result m c) := by
  have h3 : t.val % 4 = 3 := (flush0_14 t).mp hf
  have h0 : ¬t.val % 4 = 0 := by omega
  have ht := t.isLt
  have hN := N_eq
  obtain ⟨e0, e1⟩ := out_idx t
  rw [flushed14_C m c t h0 h3]
  refine funext fun (y : S512x1024.Idx) => ?_
  obtain ⟨p, q, rfl⟩ : ∃ (p : Fin 512) (q : Fin 1024), y = ix2 p q := ⟨y 0, y 1, eq_ix2 y⟩
  have hp := p.isLt
  have hq := q.isLt
  obtain ⟨R, hR⟩ : ∃ R : Fin 8192, R.val = 512 * (t.val / 16) + p.val := ⟨⟨512 * (t.val / 16) + p.val, by omega⟩, rfl⟩
  obtain ⟨H, hH⟩ : ∃ H : Fin 4096, H.val = 1024 * (t.val / 4 % 4) + q.val := ⟨⟨1024 * (t.val / 4 % 4) + q.val, by omega⟩, rfl⟩
  have hemb : ((cfg0.win 14).blk t).view.emb (ix2 p q) = ix2 R H := by
    funext a; apply Fin.ext
    match a with
    | ⟨0, _⟩ =>
      show win0_14.index t (0 : Fin 2) * 512 + 1 * p.val = R.val
      omega
    | ⟨1, _⟩ =>
      show win0_14.index t (1 : Fin 2) * 1024 + 1 * q.val = H.val
      omega
  show out0_C_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      (outsAt0 m c (t.val - 1) (Nat.lt_of_le_of_lt (Nat.sub_le _ _) t.isLt)).2 (ix2 p q)
    = result m c (((cfg0.win 14).blk t).view.emb (ix2 p q))
  rw [hemb]
  refine (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ p q).trans ?_
  have s0 := slab_closed m c t h3 (0 : Fin 6) p q R H hR hH
  have s1 := slab_closed m c t h3 (1 : Fin 6) p q R H hR hH
  have s2 := slab_closed m c t h3 (2 : Fin 6) p q R H hR hH
  have s3 := slab_closed m c t h3 (3 : Fin 6) p q R H hR hH
  have s4 := slab_closed m c t h3 (4 : Fin 6) p q R H hR hH
  have s5 := slab_closed m c t h3 (5 : Fin 6) p q R H hR hH
  show _ = Cert.Gru.combine (Cert.Gru.lin (argX m c) (argW1 m c) (argB1 m c) R H)
    (Cert.Gru.lin (argX m c) (argW2 m c) (argB2 m c) R H) (Cert.Gru.lin (argX m c) (argW3 m c) (argB3 m c) R H)
    (Cert.Gru.lin (argX m c) (argW4 m c) (argB4 m c) R H) (Cert.Gru.lin (argX m c) (argW5 m c) (argB5 m c) R H)
    (Cert.Gru.lin (argX m c) (argW6 m c) (argB6 m c) R H) (argHid m c (ix2 R H))
  exact Cert.Gru.Kernel.combine_congr
    (congrArg₂ (· + ·) (s0.trans (zero_add _)) (bblk1_apply m c t q H hH))
    (congrArg₂ (· + ·) (s1.trans (zero_add _)) (bblk2_apply m c t q H hH))
    (congrArg₂ (· + ·) (s2.trans (zero_add _)) (bblk3_apply m c t q H hH))
    (congrArg₂ (· + ·) (s3.trans (zero_add _)) (bblk4_apply m c t q H hH))
    (congrArg₂ (· + ·) (s4.trans (zero_add _)) (bblk5_apply m c t q H hH))
    (congrArg₂ (· + ·) (s5.trans (zero_add _)) (bblk6_apply m c t q H hH))
    (hblk_apply m c t p q R H hR hH)

/-- An index of the result is in point `t`'s block iff each coordinate is in the block's range on its axis. -/
theorem mem_blk (t : Fin cfg0.N) (i : S8192x4096.Idx) :
    i ∈ ((cfg0.win 14).blk t).view.set ↔ ∀ a : Fin 2, win0_14.index t a * S512x1024.size a ≤ (i a).val
      ∧ (i a).val < win0_14.index t a * S512x1024.size a + S512x1024.size a := by
  show i ∈ ((View.whole main_v13).slice (win0_14.rect t)).set ↔ _
  rw [View.set_slice_whole, Rect.mem_set_unit]
  exact Iff.rfl

/-- Every index of the result is in some flushing point's block. -/
theorem cover (i : S8192x4096.Idx) :
    ∃ t : Fin cfg0.N, (cfg0.win 14).flush t = true ∧ i ∈ ((cfg0.win 14).blk t).view.set := by
  have hi0 : (i 0).val < 8192 := (i 0).isLt
  have hi1 : (i 1).val < 4096 := (i 1).isLt
  have hN := N_eq
  obtain ⟨n, hn⟩ : ∃ n : ℕ, n = ((i 0).val / 512 * 4 + (i 1).val / 1024) * 4 + 3 := ⟨_, rfl⟩
  have hlt : n < cfg0.N := by omega
  obtain ⟨e0, e1⟩ := out_idx ⟨n, hlt⟩
  refine ⟨⟨n, hlt⟩, (flush0_14 _).mpr (by show n % 4 = 3; omega), ?_⟩
  rw [mem_blk]
  intro a
  match a with
  | ⟨0, _⟩ =>
    show win0_14.index ⟨n, hlt⟩ (0 : Fin 2) * 512 ≤ (i 0).val ∧ (i 0).val < win0_14.index ⟨n, hlt⟩ (0 : Fin 2) * 512 + 512
    have e0' : win0_14.index ⟨n, hlt⟩ (0 : Fin 2) = n / 16 := e0
    omega
  | ⟨1, _⟩ =>
    show win0_14.index ⟨n, hlt⟩ (1 : Fin 2) * 1024 ≤ (i 1).val ∧ (i 1).val < win0_14.index ⟨n, hlt⟩ (1 : Fin 2) * 1024 + 1024
    have e1' : win0_14.index ⟨n, hlt⟩ (1 : Fin 2) = n / 4 % 4 := e1
    omega

/-- THE RESULT ARRAY after the run. -/
theorem final (c : Dev nD) : (dats m 0 c).arrAt 14 cfg0.N = result m c :=
  (dats m 0 c).arrAt_eq_of_cover 14 (result m c) (fun t hf => flushed_eq m c t hf) cover

/-- The run, read: the result array at the cell of the arguments, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (run_blocks m ρ)

end Cert.Gru.Kernel

end
-- ==== Proof.lean ====
/-
  The certificate of a fused GRU-style cell whose six gates all read the same activations.

  With `lin_g(b, h) = Σ_d x[b,d] · w_g[h,d] + bias_g[h]` for the gates g = ir, iz, in, hr, hz, hn and σ the logistic
  function on the extended reals, both programs return
      (1 − z) · hidden + z · n,   r = σ(lin_ir + lin_hr),   z = σ(lin_iz + lin_hz),   n = σ(lin_in + r · lin_hn).
  The kernel walks a 16 × 4 × 4 grid: for each batch tile and output-feature tile it accumulates the six dot products in
  four blocks of 1024 features into a scratch it zeroes at the first block, and at the last block adds the biases,
  applies the gates and writes the 512 × 1024 output tile. The reference stacks the six weights into one matrix, takes
  one product, adds the stacked bias and slices the six gates back out; it spells σ as 1 / (1 + exp(−·)), which on the
  extended reals is the logistic function, infinities included. A change of float format changes no value here, so
  the kernel's narrower operands are the arguments themselves.
  The one law between the two is that a sum over 4096 features is the sum of its four runs of 1024 consecutive
  features — sums of extended reals are commutative and associative also at the infinities — so the precondition is
  never opened. The idealized kernel is the kernel's own text read over the extended reals (the rewrite ledger is
  empty), so the preservation claim asks nothing.
  Modules: GruSpec (the cell and the law), RefValue (the reference is the cell), BodyValue (what one run of the body
  leaves), BlockReads (each window's block read through to the arguments), Accumulate (the scratch after a run of
  four is the whole contraction), KernelValue (the kernel's result array is the cell).
-/
import proofs.«134069_j83116207112676_1_alg».proof.Defs
import proofs.«134069_j83116207112676_1_alg».proof.Proof.Gen.Kernel
import proofs.«134069_j83116207112676_1_alg».proof.Proof.Gen.Kernel.Skeleton
import proofs.«134069_j83116207112676_1_alg».proof.Proof.Gen.Kernel.Launch
import proofs.«134069_j83116207112676_1_alg».proof.Proof.Gen.Kernel.Points
import proofs.«134069_j83116207112676_1_alg».proof.Proof.Gen.Kernel.Frame
import proofs.«134069_j83116207112676_1_alg».proof.Proof.Gen.KernelIdeal
import proofs.«134069_j83116207112676_1_alg».proof.Proof.Gen.KernelIdeal.Skeleton
import proofs.«134069_j83116207112676_1_alg».proof.Proof.Gen.KernelIdeal.Launch
import proofs.«134069_j83116207112676_1_alg».proof.Proof.Gen.KernelIdeal.Points
import proofs.«134069_j83116207112676_1_alg».proof.Proof.Gen.KernelIdeal.Frame
import proofs.«134069_j83116207112676_1_alg».proof.Proof.Gen.KernelIdeal.Value
import proofs.«134069_j83116207112676_1_alg».proof.Proof.Gen.ReferenceIdeal
import proofs.«134069_j83116207112676_1_alg».proof.Proof.Gen.ReferenceIdeal.Run
import proofs.«134069_j83116207112676_1_alg».proof.Proof.Gen.ReferenceIdeal.Read
import proofs.«134069_j83116207112676_1_alg».proof.Proof.Gen.Pre_finite_inputs
import proofs.«134069_j83116207112676_1_alg».proof.Proof.GruSpec
import proofs.«134069_j83116207112676_1_alg».proof.Proof.RefValue
import proofs.«134069_j83116207112676_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From arguments that agree, the kernel's result array ends at the cell of its arguments and the reference's
    result at the cell of its own: one array. -/
theorem algebraic : Cert.algebraic_KernelIdeal_ReferenceIdeal := by
  intro m ρ m' ρ' _ hagree
  refine ⟨fun c => Cert.Gru.Kernel.result m c, Cert.Gru.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v38_eq, Cert.Gru.Ref.val_eq, a0, a1, a2, a3, a4, a5, a6, a7, a8, a9, a10, a11,
    a12, a13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
